-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x256 : Shape := ⟨3, ![16384, 2, 256]⟩
abbrev S8x256 : Shape := ⟨2, ![8, 256]⟩
abbrev S8192 : Shape := ⟨1, ![8192]⟩
abbrev S8x1024 : Shape := ⟨2, ![8, 1024]⟩
abbrev S_ : Shape := ⟨0, ![]⟩

class Facts : Prop where
  bcast_S_S16384x2x256 : S_.BroadcastsInDim S16384x2x256 (![] : Fin 0 → Fin S16384x2x256.rank)
  reducesTo_S16384x2x256_S_d0_1_2 : S16384x2x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : IVec S8x1024 32) (main_v15 : IVec S_ 1) (main_c_5 : IVec S_ 32) : IVec S_ 1 :=
  let main_v16 : IVec S8x1024 32 := broadcastInDim S8x1024 ![] bcast_S_S8x1024 main_c_5
  let main_v17 : IVec S8x1024 1 := cmpi .sge main_arg5 main_v16
  let main_c_6 : IVec S_ 32 := constantI S_ 32 8192#32
  let main_v18 : IVec S8x1024 32 := broadcastInDim S8x1024 ![] bcast_S_S8x1024 main_c_6
  let main_v19 : IVec S8x1024 1 := cmpi .slt main_arg5 main_v18
  let main_v20 : IVec S8x1024 1 := andi main_v17 main_v19
  let main_c_7 : IVec S_ 1 := constantI S_ 1 1#1
  let main_v21 : IVec S_ 1 := (fun x v => Host.reduce IntOp.andi x v reducesTo_S8x1024_S_d0_1 h_S_) main_v20 main_c_7
  let main_v22 : IVec S_ 1 := andi main_v15 main_v21
  main_v22

def fn {F : FTy → Type} [FloatOps F] (main_arg0 : FVec F S16384x2x256 .f32) (main_arg1 : FVec F S8x256 .f32) (main_arg2 : IVec S8192 32) (main_arg3 : IVec S8192 32) (main_arg4 : IVec S8x1024 32) (main_arg5 : IVec S8x1024 32) : IVec S_ 1 :=
  let main_v0 : FVec F S16384x2x256 .f32 := Host.absf main_arg0
  let main_cst : FVec F S_ .f32 := constant S_ .f32 0x7F800000#32
  let main_v1 : FVec F S16384x2x256 .f32 := broadcastInDim S16384x2x256 ![] bcast_S_S16384x2x256 main_cst
  let main_v2 : IVec S16384x2x256 1 := cmpf .olt main_v0 main_v1
  let main_c : IVec S_ 1 := constantI S_ 1 1#1
  let main_v3 : IVec S_ 1 := (fun x v => Host.reduce IntOp.andi x v reducesTo_S16384x2x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_c_2 : IVec S_ 32 := constantI S_ 32 4294959104#32
  let main_v9 : IVec S8x1024 32 := broadcastInDim S8x1024 ![] bcast_S_S8x1024 main_c_2
  let main_v10 : IVec S8x1024 1 := cmpi .sge main_arg4 main_v9
  let main_c_3 : IVec S_ 32 := constantI S_ 32 8192#32
  let main_v11 : IVec S8x1024 32 := broadcastInDim S8x1024 ![] bcast_S_S8x1024 main_c_3
  let main_v12 : IVec S8x1024 1 := cmpi .slt main_arg4 main_v11
  let main_v13 : IVec S8x1024 1 := andi main_v10 main_v12
  let main_c_4 : IVec S_ 1 := constantI S_ 1 1#1
  let main_v14 : IVec S_ 1 := (fun x v => Host.reduce IntOp.andi x v reducesTo_S8x1024_S_d0_1 h_S_) main_v13 main_c_4
  let main_v15 : IVec S_ 1 := andi main_v8 main_v14
  let main_c_5 : IVec S_ 32 := constantI S_ 32 4294959104#32
  fn_part1 (F := F) main_arg5 main_v15 main_c_5
-- ==== Kernel.lean ====
abbrev S16384x2x256 : Shape := ⟨3, ![16384, 2, 256]⟩
abbrev S8x256 : Shape := ⟨2, ![8, 256]⟩
abbrev S8192 : Shape := ⟨1, ![8192]⟩
abbrev S8x1024 : Shape := ⟨2, ![8, 1024]⟩
abbrev S8192x1024 : Shape := ⟨2, ![8192, 1024]⟩
abbrev S_ : Shape := ⟨0, ![]⟩
abbrev S8192x1 : Shape := ⟨2, ![8192, 1]⟩
abbrev S8192x256 : Shape := ⟨2, ![8192, 256]⟩
abbrev S2048x1024 : Shape := ⟨2, ![2048, 1024]⟩
abbrev S2048x256 : Shape := ⟨2, ![2048, 256]⟩
abbrev S2048 : Shape := ⟨1, ![2048]⟩
abbrev S8x1024x256 : Shape := ⟨3, ![8, 1024, 256]⟩
abbrev S8x1024x1 : Shape := ⟨3, ![8, 1024, 1]⟩
abbrev S1 : Shape := ⟨1, ![1]⟩
abbrev S1x1x1 : Shape := ⟨3, ![1, 1, 1]⟩
abbrev S8x2x1024x1024 : Shape := ⟨4, ![8, 2, 1024, 1024]⟩
abbrev S1x1024x256 : Shape := ⟨3, ![1, 1024, 256]⟩
abbrev S1x2x1024x1024 : Shape := ⟨4, ![1, 2, 1024, 1024]⟩
abbrev S1024x256 : Shape := ⟨2, ![1024, 256]⟩
abbrev S256x1024 : Shape := ⟨2, ![256, 1024]⟩
abbrev S1024x1024 : Shape := ⟨2, ![1024, 1024]⟩
abbrev S1x1x1024x1024 : Shape := ⟨4, ![1, 1, 1024, 1024]⟩
abbrev S16777216 : Shape := ⟨1, ![16777216]⟩
abbrev S16785408 : Shape := ⟨1, ![16785408]⟩

abbrev nBuf : Space → Nat
  | .hbm => 92
  | .vmem => 24
  | .smem => 0
  | _ => 0

abbrev bufTy : (tb : Table) → Fin (tcTables nBuf tb) → BufTy
  | .hbm, ⟨0, _⟩ => ⟨S16384x2x256, .f32⟩
  | .hbm, ⟨1, _⟩ => ⟨S8x256, .f32⟩
  | .hbm, ⟨2, _⟩ => ⟨S8192, .i32⟩
  | .hbm, ⟨3, _⟩ => ⟨S8192, .i32⟩
  | .hbm, ⟨4, _⟩ => ⟨S8x1024, .i32⟩
  | .hbm, ⟨5, _⟩ => ⟨S8x1024, .i32⟩
  | .hbm, ⟨6, _⟩ => ⟨S8192x1024, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192, .f32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x256, .f32⟩
  | .hbm, ⟨29, _⟩ => ⟨S8x1024x256, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x256, .f32⟩
  | .hbm, ⟨39, _⟩ => ⟨S8x1024x256, .f32⟩
  | .hbm, ⟨40, _⟩ => ⟨S_, .i32⟩
  | .hbm, ⟨41, _⟩ => ⟨S8x1024, .i32⟩
  | .hbm, ⟨42, _⟩ => ⟨S8x1024, .i1⟩
  | .hbm, ⟨43, _⟩ => ⟨S_, .i32⟩
  | .hbm, ⟨44, _⟩ => ⟨S8x1024, .i32⟩
  | .hbm, ⟨45, _⟩ => ⟨S8x1024, .i32⟩
  | .hbm, ⟨46, _⟩ => ⟨S8x1024, .i32⟩
  | .hbm, ⟨47, _⟩ => ⟨S8x1024x1, .i32⟩
  | .hbm, ⟨48, _⟩ => ⟨S1, .i32⟩
  | .hbm, ⟨49, _⟩ => ⟨S_, .i32⟩
  | .hbm, ⟨50, _⟩ => ⟨S8x1024x1, .i32⟩
  | .hbm, ⟨51, _⟩ => ⟨S8x1024x1, .i1⟩
  | .hbm, ⟨52, _⟩ => ⟨S1x1x1, .i32⟩
  | .hbm, ⟨53, _⟩ => ⟨S8x1024x1, .i32⟩
  | .hbm, ⟨54, _⟩ => ⟨S8x1024x1, .i1⟩
  | .hbm, ⟨55, _⟩ => ⟨S8x1024x1, .i1⟩
  | .hbm, ⟨56, _⟩ => ⟨S_, .i1⟩
  | .hbm, ⟨57, _⟩ => ⟨S8x1024, .i1⟩
  | .hbm, ⟨58, _⟩ => ⟨S8x1024x256, .f32⟩
  | .hbm, ⟨59, _⟩ => ⟨S8x1024x256, .i1⟩
  | .hbm, ⟨60, _⟩ => ⟨S_, .f32⟩
  | .hbm, ⟨61, _⟩ => ⟨S8x1024x256, .f32⟩
  | .hbm, ⟨62, _⟩ => ⟨S8x1024x256, .f32⟩
  | .hbm, ⟨63, _⟩ => ⟨S_, .i32⟩
  | .hbm, ⟨64, _⟩ => ⟨S8x1024, .i32⟩
  | .hbm, ⟨65, _⟩ => ⟨S8x1024, .i1⟩
  | .hbm, ⟨66, _⟩ => ⟨S_, .i32⟩
  | .hbm, ⟨67, _⟩ => ⟨S8x1024, .i32⟩
  | .hbm, ⟨68, _⟩ => ⟨S8x1024, .i32⟩
  | .hbm, ⟨69, _⟩ => ⟨S8x1024, .i32⟩
  | .hbm, ⟨70, _⟩ => ⟨S8x1024x1, .i32⟩
  | .hbm, ⟨71, _⟩ => ⟨S1, .i32⟩
  | .hbm, ⟨72, _⟩ => ⟨S_, .i32⟩
  | .hbm, ⟨73, _⟩ => ⟨S8x1024x1, .i32⟩
  | .hbm, ⟨74, _⟩ => ⟨S8x1024x1, .i1⟩
  | .hbm, ⟨75, _⟩ => ⟨S1x1x1, .i32⟩
  | .hbm, ⟨76, _⟩ => ⟨S8x1024x1, .i32⟩
  | .hbm, ⟨77, _⟩ => ⟨S8x1024x1, .i1⟩
  | .hbm, ⟨78, _⟩ => ⟨S8x1024x1, .i1⟩
  | .hbm, ⟨79, _⟩ => ⟨S_, .i1⟩
  | .hbm, ⟨80, _⟩ => ⟨S8x1024, .i1⟩
  | .hbm, ⟨81, _⟩ => ⟨S8x1024x256, .f32⟩
  | .hbm, ⟨82, _⟩ => ⟨S8x1024x256, .i1⟩
  | .hbm, ⟨83, _⟩ => ⟨S_, .f32⟩
  | .hbm, ⟨84, _⟩ => ⟨S8x1024x256, .f32⟩
  | .hbm, ⟨85, _⟩ => ⟨S8x1024x256, .f32⟩
  | .hbm, ⟨86, _⟩ => ⟨S8x2x1024x1024, .f32⟩
  | .hbm, ⟨87, _⟩ => ⟨S8x2x1024x1024, .f32⟩
  | .hbm, ⟨88, _⟩ => ⟨S16777216, .f32⟩
  | .hbm, ⟨89, _⟩ => ⟨S16785408, .f32⟩
  | .hbm, ⟨90, _⟩ => ⟨S16777216, .f32⟩
  | .hbm, ⟨91, _⟩ => ⟨S16785408, .f32⟩
  | .local _ .vmem, ⟨0, _⟩ => ⟨S2048x1024, .f32⟩
  | .local _ .vmem, ⟨1, _⟩ => ⟨S2048x1024, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x2x1024x1024, .f32⟩
  | .local _ .vmem, ⟨21, _⟩ => ⟨S1x2x1024x1024, .f32⟩
  | .local _ .vmem, ⟨22, _⟩ => ⟨S1x2x1024x1024, .f32⟩
  | .local _ .vmem, ⟨23, _⟩ => ⟨S1x2x1024x1024, .f32⟩
  | _, _ => ⟨S16384x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v25 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v26 : Ref sig .tc := ⟨.hbm, 85, rfl⟩
abbrev main_v27_0 : Ref sig .tc := ⟨.hbm, 86, rfl⟩
abbrev main_v27_1 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S16384x2x256_S8192x1024 : S16384x2x256.ShapeCasts S8192x1024
  bcast_S_S8192 : S_.BroadcastsInDim S8192 (![] : Fin 0 → Fin S8192.rank)
  bcast_S8192_S8192x1_0 : S8192.BroadcastsInDim S8192x1 (![0] : Fin 1 → Fin S8192x1.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  inb_S2048_S2048_0 : ∀ a, (![0] : Fin 1 → Nat) a + S2048.size a ≤ S2048.size a
  h_S2048 : 0 < S2048.numel
  shapeCasts_S8192x256_S8x1024x256 : S8192x256.ShapeCasts S8x1024x256
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x1024x256_0_1 : S8x1024.BroadcastsInDim S8x1024x256 (![0, 1] : Fin 2 → Fin S8x1024x256.rank)
  bcast_S_S8x1024x256 : S_.BroadcastsInDim S8x1024x256 (![] : Fin 0 → Fin S8x1024x256.rank)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  inb_S1x2x1024x1024_S1x1x1024x1024_0_1_0_0 : ∀ a, (![0, 1, 0, 0] : Fin 4 → Nat) a + S1x1x1024x1024.size a ≤ S1x2x1024x1024.size a
  shapeCasts_S8x2x1024x1024_S16777216 : S8x2x1024x1024.ShapeCasts S16777216
  concatenates_S8192_S16777216_S16785408_d0 : Shape.Concatenates [S8192, S16777216] S16785408 0
  gather_S8x256_S8192x1_S8192x256_1_0_n_n_0_1_1256_wf : GatherDims.WF S8x256 S8192x1 S8192x256 [1] [0] [] [0] [] 1 ![1, 256]
  gather_S8192x256_S8192x1_S8192x256_1_0_n_n_0_1_1256_wf : GatherDims.WF S8192x256 S8192x1 S8192x256 [1] [0] [] [0] [] 1 ![1, 256]
  gather_S8192x256_S8x1024x1_S8x1024x256_2_0_n_n_0_2_1256_wf : GatherDims.WF S8192x256 S8x1024x1 S8x1024x256 [2] [0] [] [0] [] 2 ![1, 256]
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S8192.size a
  hwx0_4 : ∀ i : grid0.Coords, EltTy.bits .f32 = 32 ∨ (Rect.block (s := S8192) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S8192.size a
  hwx0_5 : ∀ i : grid0.Coords, EltTy.bits .f32 = 32 ∨ (Rect.block (s := S8192) S2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x1024x256.size a
  hwx1_0 : ∀ i : grid1.Coords, EltTy.bits .f32 = 32 ∨ (Rect.block (s := S8x1024x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S8x1024x256.size a
  hwx1_1 : ∀ i : grid1.Coords, EltTy.bits .f32 = 32 ∨ (Rect.block (s := S8x1024x256) S1x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S8x1024x256.size a
  hwx1_2 : ∀ i : grid1.Coords, EltTy.bits .f32 = 32 ∨ (Rect.block (s := S8x1024x256) S1x1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S8x1024x256.size a
  hwx1_3 : ∀ i : grid1.Coords, EltTy.bits .f32 = 32 ∨ (Rect.block (s := S8x1024x256) S1x1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x1024x1024.size a ≤ S8x2x1024x1024.size a
  hwx1_4 : ∀ i : grid1.Coords, EltTy.bits .f32 = 32 ∨ (Rect.block (s := S8x2x1024x1024) S1x2x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x1024x1024.size a ≤ S8x2x1024x1024.size a
  hwx1_5 : ∀ i : grid1.Coords, EltTy.bits .f32 = 32 ∨ (Rect.block (s := S8x2x1024x1024) S1x2x1024x1024.size (cc1_transform_5 i) (hinb1_5 i)).WholeWords (EltTy.packing .f32)

variable [Facts₀]

def gather_S8x256_S8192x1_S8192x256_1_0_n_n_0_1_1256 : GatherDims S8x256 S8192x1 S8192x256 where
  offsetDims := [1]
  collapsedSliceDims := [0]
  operandBatchingDims := []
  startIndicesBatchingDims := []
  startIndexMap := [0]
  indexVectorDim := 1
  sliceSizes := ![1, 256]
  wf := gather_S8x256_S8192x1_S8192x256_1_0_n_n_0_1_1256_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S8192x256_S8x1024x1_S8x1024x256_2_0_n_n_0_2_1256 : GatherDims S8192x256 S8x1024x1 S8x1024x256 where
  offsetDims := [2]
  collapsedSliceDims := [0]
  operandBatchingDims := []
  startIndicesBatchingDims := []
  startIndexMap := [0]
  indexVectorDim := 2
  sliceSizes := ![1, 256]
  wf := gather_S8192x256_S8x1024x1_S8x1024x256_2_0_n_n_0_2_1256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_2) S2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_3) S2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_0) S1x2x1024x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_1) S1x2x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x2x256 : Shape := ⟨3, ![16384, 2, 256]⟩
abbrev S8x256 : Shape := ⟨2, ![8, 256]⟩
abbrev S8192 : Shape := ⟨1, ![8192]⟩
abbrev S8x1024 : Shape := ⟨2, ![8, 1024]⟩
abbrev S_ : Shape := ⟨0, ![]⟩
abbrev S16384x256 : Shape := ⟨2, ![16384, 256]⟩
abbrev S8192x2x256 : Shape := ⟨3, ![8192, 2, 256]⟩
abbrev S8192x1x256 : Shape := ⟨3, ![8192, 1, 256]⟩
abbrev S8192x256 : Shape := ⟨2, ![8192, 256]⟩
abbrev S8192x1 : Shape := ⟨2, ![8192, 1]⟩
abbrev S8x1024x256 : Shape := ⟨3, ![8, 1024, 256]⟩
abbrev S8x1024x1 : Shape := ⟨3, ![8, 1024, 1]⟩
abbrev S8x1024x1024 : Shape := ⟨3, ![8, 1024, 1024]⟩
abbrev S8x1048576 : Shape := ⟨2, ![8, 1048576]⟩
abbrev S8x2097152 : Shape := ⟨2, ![8, 2097152]⟩
abbrev S16777216 : Shape := ⟨1, ![16777216]⟩
abbrev S16785408 : Shape := ⟨1, ![16785408]⟩

abbrev nBuf : Space → Nat
  | .hbm => 79
  | .vmem => 0
  | .smem => 0
  | _ => 0

abbrev bufTy : (tb : Table) → Fin (tcTables nBuf tb) → BufTy
  | .hbm, ⟨0, _⟩ => ⟨S16384x2x256, .f32⟩
  | .hbm, ⟨1, _⟩ => ⟨S8x256, .f32⟩
  | .hbm, ⟨2, _⟩ => ⟨S8192, .i32⟩
  | .hbm, ⟨3, _⟩ => ⟨S8192, .i32⟩
  | .hbm, ⟨4, _⟩ => ⟨S8x1024, .i32⟩
  | .hbm, ⟨5, _⟩ => ⟨S8x1024, .i32⟩
  | .hbm, ⟨6, _⟩ => ⟨S_, .f32⟩
  | .hbm, ⟨7, _⟩ => ⟨S16384x256, .f32⟩
  | .hbm, ⟨8, _⟩ => ⟨S8192x2x256, .f32⟩
  | .hbm, ⟨9, _⟩ => ⟨S8192x1x256, .f32⟩
  | .hbm, ⟨10, _⟩ => ⟨S8192x256, .f32⟩
  | .hbm, ⟨11, _⟩ => ⟨S8192x1x256, .f32⟩
  | .hbm, ⟨12, _⟩ => ⟨S8192x256, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x256, .f32⟩
  | .hbm, ⟨35, _⟩ => ⟨S8x1024x256, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x256, .f32⟩
  | .hbm, ⟨45, _⟩ => ⟨S8x1024x256, .f32⟩
  | .hbm, ⟨46, _⟩ => ⟨S_, .i32⟩
  | .hbm, ⟨47, _⟩ => ⟨S8x1024, .i32⟩
  | .hbm, ⟨48, _⟩ => ⟨S8x1024, .i1⟩
  | .hbm, ⟨49, _⟩ => ⟨S_, .i32⟩
  | .hbm, ⟨50, _⟩ => ⟨S8x1024, .i32⟩
  | .hbm, ⟨51, _⟩ => ⟨S8x1024, .i32⟩
  | .hbm, ⟨52, _⟩ => ⟨S8x1024, .i32⟩
  | .hbm, ⟨53, _⟩ => ⟨S8x1024x1, .i32⟩
  | .hbm, ⟨54, _⟩ => ⟨S8x1024x256, .f32⟩
  | .hbm, ⟨55, _⟩ => ⟨S_, .i32⟩
  | .hbm, ⟨56, _⟩ => ⟨S8x1024, .i32⟩
  | .hbm, ⟨57, _⟩ => ⟨S8x1024, .i1⟩
  | .hbm, ⟨58, _⟩ => ⟨S_, .i32⟩
  | .hbm, ⟨59, _⟩ => ⟨S8x1024, .i32⟩
  | .hbm, ⟨60, _⟩ => ⟨S8x1024, .i32⟩
  | .hbm, ⟨61, _⟩ => ⟨S8x1024, .i32⟩
  | .hbm, ⟨62, _⟩ => ⟨S8x1024x1, .i32⟩
  | .hbm, ⟨63, _⟩ => ⟨S8x1024x256, .f32⟩
  | .hbm, ⟨64, _⟩ => ⟨S8x1024x1024, .f32⟩
  | .hbm, ⟨65, _⟩ => ⟨S8x1048576, .f32⟩
  | .hbm, ⟨66, _⟩ => ⟨S8x1024x1024, .f32⟩
  | .hbm, ⟨67, _⟩ => ⟨S8x1048576, .f32⟩
  | .hbm, ⟨68, _⟩ => ⟨S8x2097152, .f32⟩
  | .hbm, ⟨69, _⟩ => ⟨S16777216, .f32⟩
  | .hbm, ⟨70, _⟩ => ⟨S16785408, .f32⟩
  | .hbm, ⟨71, _⟩ => ⟨S16785408, .f32⟩
  | .hbm, ⟨72, _⟩ => ⟨S16785408, .f32⟩
  | .hbm, ⟨73, _⟩ => ⟨S_, .f32⟩
  | .hbm, ⟨74, _⟩ => ⟨S16785408, .f32⟩
  | .hbm, ⟨75, _⟩ => ⟨S16785408, .f32⟩
  | .hbm, ⟨76, _⟩ => ⟨S_, .f32⟩
  | .hbm, ⟨77, _⟩ => ⟨S16785408, .f32⟩
  | .hbm, ⟨78, _⟩ => ⟨S16785408, .f32⟩
  | _, _ => ⟨S16384x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  reducesTo_S16384x2x256_S16384x256_d1 : S16384x2x256.ReducesTo [1] S16384x256
  h_S_ : 0 < S_.numel
  shapeCasts_S16384x256_S8192x2x256 : S16384x256.ShapeCasts S8192x2x256
  slices_S8192x2x256_S8192x1x256_0_0_0 : S8192x2x256.Slices ![0, 0, 0] S8192x1x256
  shapeCasts_S8192x1x256_S8192x256 : S8192x1x256.ShapeCasts S8192x256
  slices_S8192x2x256_S8192x1x256_0_1_0 : S8192x2x256.Slices ![0, 1, 0] S8192x1x256
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  shapeCasts_S8192x256_S8x1024x256 : S8192x256.ShapeCasts S8x1024x256
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  shapeCasts_S8x1024x1024_S8x1048576 : S8x1024x1024.ShapeCasts S8x1048576
  concatenates_S8x1048576_S8x1048576_S8x2097152_d1 : Shape.Concatenates [S8x1048576, S8x1048576] S8x2097152 1
  shapeCasts_S8x2097152_S16777216 : S8x2097152.ShapeCasts S16777216
  concatenates_S8192_S16777216_S16785408_d0 : Shape.Concatenates [S8192, S16777216] S16785408 0
  bcast_S_S16785408 : S_.BroadcastsInDim S16785408 (![] : Fin 0 → Fin S16785408.rank)
  gather_S8x256_S8192x1_S8192x256_1_0_n_n_0_1_1256_wf : GatherDims.WF S8x256 S8192x1 S8192x256 [1] [0] [] [0] [] 1 ![1, 256]
  gather_S8192x256_S8192x1_S8192x256_1_0_n_n_0_1_1256_wf : GatherDims.WF S8192x256 S8192x1 S8192x256 [1] [0] [] [0] [] 1 ![1, 256]
  gather_S8192x256_S8x1024x1_S8x1024x256_2_0_n_n_0_2_1256_wf : GatherDims.WF S8192x256 S8x1024x1 S8x1024x256 [2] [0] [] [0] [] 2 ![1, 256]
  dot_S8x1024x256_S8x1024x256_S8x1024x1024_2_2_1_1_0_0_wf : DotDims.WF S8x1024x256 S8x1024x256 S8x1024x1024 [2] [2] [1] [1] [0] [0]

variable [Facts₀]

def gather_S8x256_S8192x1_S8192x256_1_0_n_n_0_1_1256 : GatherDims S8x256 S8192x1 S8192x256 where
  offsetDims := [1]
  collapsedSliceDims := [0]
  operandBatchingDims := []
  startIndicesBatchingDims := []
  startIndexMap := [0]
  indexVectorDim := 1
  sliceSizes := ![1, 256]
  wf := gather_S8x256_S8192x1_S8192x256_1_0_n_n_0_1_1256_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S8192x256_S8x1024x1_S8x1024x256_2_0_n_n_0_2_1256 : GatherDims S8192x256 S8x1024x1 S8x1024x256 where
  offsetDims := [2]
  collapsedSliceDims := [0]
  operandBatchingDims := []
  startIndicesBatchingDims := []
  startIndexMap := [0]
  indexVectorDim := 2
  sliceSizes := ![1, 256]
  wf := gather_S8192x256_S8x1024x1_S8x1024x256_2_0_n_n_0_2_1256_wf
def dot_S8x1024x256_S8x1024x256_S8x1024x1024_2_2_1_1_0_0 : DotDims S8x1024x256 S8x1024x256 S8x1024x1024 where
  lhsContracting := [2]
  rhsContracting := [2]
  lhsNonContracting := [1]
  rhsNonContracting := [1]
  lhsBatch := [0]
  rhsBatch := [0]
  wf := dot_S8x1024x256_S8x1024x256_S8x1024x1024_2_2_1_1_0_0_wf

class Facts : Prop extends Facts₀ where

variable [Facts]
-- ==== Proof.ReferenceRun.lean ====
/-
  The reference's run, read in two stretches.

  The reference is a straight line of 73 host operations. Its first sixty compute the node vectors, the positive
  scores, the grouped and the sampled rows and the first batched product; its last thirteen compute the second
  batched product, join the two products and put them behind the positive scores, and apply the logistic function
  in its expanded form. Read after the first sixty operations, four buffers hold the reference's stages of the
  arguments; the last thirteen operations read only those four, so what they leave in the two result buffers is a
  fixed expression in four arrays, whatever those arrays are. Putting the two readings together gives each result
  as the reference's stage function of the arguments.
-/
import proofs.«404157_j18021682774350_2_alg».proof.Proof.RefRead
import Idealize.ShloMosaic.Lib.StableHlo.Run
import Idealize.ShloMosaic.Lib.Pipeline.Frame

noncomputable section

namespace Cert.ReferenceIdeal.TwoStretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first sixty operations. -/
abbrev opsA : List (HloOp τ sig (Elt F)) :=
  [ nullary main_cst (constant S_ .f32 0x00000000#32),
    binary main_arg0 main_cst main_v0 ((fun x v => Host.reduceAdd x v reducesTo_S16384x2x256_S16384x256_d1 h_S_) : (⟨S16384x2x256, .f32⟩ : BufTy).Contents (Elt F) → (⟨S_, .f32⟩ : BufTy).Contents (Elt F) → (⟨S16384x256, .f32⟩ : BufTy).Contents (Elt F)),
    reshape main_v0 main_v1 rfl shapeCasts_S16384x256_S8192x2x256,
    unary main_v1 main_v2 ((extractStridedSlice S8192x1x256 ![0, 0, 0] · slices_S8192x2x256_S8192x1x256_0_0_0) : (⟨S8192x2x256, .f32⟩ : BufTy).Contents (Elt F) → (⟨S8192x1x256, .f32⟩ : BufTy).Contents (Elt F)),
    reshape main_v2 main_v3 rfl shapeCasts_S8192x1x256_S8192x256,
    unary main_v1 main_v4 ((extractStridedSlice S8192x1x256 ![0, 1, 0] · slices_S8192x2x256_S8192x1x256_0_1_0) : (⟨S8192x2x256, .f32⟩ : BufTy).Contents (Elt F) → (⟨S8192x1x256, .f32⟩ : BufTy).Contents (Elt F)),
    reshape main_v4 main_v5 rfl shapeCasts_S8192x1x256_S8192x256,
    nullary main_c (constantI S_ 32 0#32),
    unary main_c main_v6 (broadcastInDim S8192 ![] bcast_S_S8192 : (⟨S_, .i32⟩ : BufTy).Contents (Elt F) → (⟨S8192, .i32⟩ : BufTy).Contents (Elt F)),
    binary main_arg2 main_v6 main_v7 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8#32),
    unary main_c_0 main_v8 (broadcastInDim S8192 ![] bcast_S_S8192 : (⟨S_, .i32⟩ : BufTy).Contents (Elt F) → (⟨S8192, .i32⟩ : BufTy).Contents (Elt F)),
    binary main_arg2 main_v8 main_v9 (addi : (⟨S8192, .i32⟩ : BufTy).Contents (Elt F) → (⟨S8192, .i32⟩ : BufTy).Contents (Elt F) → (⟨S8192, .i32⟩ : BufTy).Contents (Elt F)),
    ternary main_v7 main_v9 main_arg2 main_v10 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v10 main_v11 (broadcastInDim S8192x1 ![0] bcast_S8192_S8192x1_0 : (⟨S8192, .i32⟩ : BufTy).Contents (Elt F) → (⟨S8192x1, .i32⟩ : BufTy).Contents (Elt F)),
    binary main_arg1 main_v11 main_v12 ((fun x i => Host.gather gather_S8x256_S8192x1_S8192x256_1_0_n_n_0_1_1256 x i) : (⟨S8x256, .f32⟩ : BufTy).Contents (Elt F) → (⟨S8192x1, .i32⟩ : BufTy).Contents (Elt F) → (⟨S8192x256, .f32⟩ : BufTy).Contents (Elt F)),
    binary main_v5 main_v12 main_v13 (addf : (⟨S8192x256, .f32⟩ : BufTy).Contents (Elt F) → (⟨S8192x256, .f32⟩ : BufTy).Contents (Elt F) → (⟨S8192x256, .f32⟩ : BufTy).Contents (Elt F)),
    binary main_v3 main_v13 main_v14 (mulf : (⟨S8192x256, .f32⟩ : BufTy).Contents (Elt F) → (⟨S8192x256, .f32⟩ : BufTy).Contents (Elt F) → (⟨S8192x256, .f32⟩ : BufTy).Contents (Elt F)),
    nullary main_cst_1 (constant S_ .f32 0x00000000#32),
    binary main_v14 main_cst_1 main_v15 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    nullary main_c_2 (constantI S_ 32 0#32),
    unary main_c_2 main_v16 (broadcastInDim S8192 ![] bcast_S_S8192 : (⟨S_, .i32⟩ : BufTy).Contents (Elt F) → (⟨S8192, .i32⟩ : BufTy).Contents (Elt F)),
    binary main_arg3 main_v16 main_v17 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v18 (broadcastInDim S8192 ![] bcast_S_S8192 : (⟨S_, .i32⟩ : BufTy).Contents (Elt F) → (⟨S8192, .i32⟩ : BufTy).Contents (Elt F)),
    binary main_arg3 main_v18 main_v19 (addi : (⟨S8192, .i32⟩ : BufTy).Contents (Elt F) → (⟨S8192, .i32⟩ : BufTy).Contents (Elt F) → (⟨S8192, .i32⟩ : BufTy).Contents (Elt F)),
    ternary main_v17 main_v19 main_arg3 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v20 main_v21 (broadcastInDim S8192x1 ![0] bcast_S8192_S8192x1_0 : (⟨S8192, .i32⟩ : BufTy).Contents (Elt F) → (⟨S8192x1, .i32⟩ : BufTy).Contents (Elt F)),
    binary main_v3 main_v21 main_v22 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    reshape main_v22 main_v23 rfl shapeCasts_S8192x256_S8x1024x256,
    nullary main_c_4 (constantI S_ 32 0#32),
    unary main_c_4 main_v24 (broadcastInDim S8192 ![] bcast_S_S8192 : (⟨S_, .i32⟩ : BufTy).Contents (Elt F) → (⟨S8192, .i32⟩ : BufTy).Contents (Elt F)),
    binary main_arg3 main_v24 main_v25 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v26 (broadcastInDim S8192 ![] bcast_S_S8192 : (⟨S_, .i32⟩ : BufTy).Contents (Elt F) → (⟨S8192, .i32⟩ : BufTy).Contents (Elt F)),
    binary main_arg3 main_v26 main_v27 (addi : (⟨S8192, .i32⟩ : BufTy).Contents (Elt F) → (⟨S8192, .i32⟩ : BufTy).Contents (Elt F) → (⟨S8192, .i32⟩ : BufTy).Contents (Elt F)),
    ternary main_v25 main_v27 main_arg3 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v28 main_v29 (broadcastInDim S8192x1 ![0] bcast_S8192_S8192x1_0 : (⟨S8192, .i32⟩ : BufTy).Contents (Elt F) → (⟨S8192x1, .i32⟩ : BufTy).Contents (Elt F)),
    binary main_v5 main_v29 main_v30 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    reshape main_v30 main_v31 rfl shapeCasts_S8192x256_S8x1024x256,
    nullary main_c_6 (constantI S_ 32 0#32),
    unary main_c_6 main_v32 (broadcastInDim S8x1024 ![] bcast_S_S8x1024 : (⟨S_, .i32⟩ : BufTy).Contents (Elt F) → (⟨S8x1024, .i32⟩ : BufTy).Contents (Elt F)),
    binary main_arg4 main_v32 main_v33 (cmpi .slt : (⟨S8x1024, .i32⟩ : BufTy).Contents (Elt F) → (⟨S8x1024, .i32⟩ : BufTy).Contents (Elt F) → (⟨S8x1024, .i1⟩ : BufTy).Contents (Elt F)),
    nullary main_c_7 (constantI S_ 32 8192#32),
    unary main_c_7 main_v34 (broadcastInDim S8x1024 ![] bcast_S_S8x1024 : (⟨S_, .i32⟩ : BufTy).Contents (Elt F) → (⟨S8x1024, .i32⟩ : BufTy).Contents (Elt F)),
    binary main_arg4 main_v34 main_v35 (addi : (⟨S8x1024, .i32⟩ : BufTy).Contents (Elt F) → (⟨S8x1024, .i32⟩ : BufTy).Contents (Elt F) → (⟨S8x1024, .i32⟩ : BufTy).Contents (Elt F)),
    ternary main_v33 main_v35 main_arg4 main_v36 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v36 main_v37 (broadcastInDim S8x1024x1 ![0, 1] bcast_S8x1024_S8x1024x1_0_1 : (⟨S8x1024, .i32⟩ : BufTy).Contents (Elt F) → (⟨S8x1024x1, .i32⟩ : BufTy).Contents (Elt F)),
    binary main_v3 main_v37 main_v38 ((fun x i => Host.gather gather_S8192x256_S8x1024x1_S8x1024x256_2_0_n_n_0_2_1256 x i) : (⟨S8192x256, .f32⟩ : BufTy).Contents (Elt F) → (⟨S8x1024x1, .i32⟩ : BufTy).Contents (Elt F) → (⟨S8x1024x256, .f32⟩ : BufTy).Contents (Elt F)),
    nullary main_c_8 (constantI S_ 32 0#32),
    unary main_c_8 main_v39 (broadcastInDim S8x1024 ![] bcast_S_S8x1024 : (⟨S_, .i32⟩ : BufTy).Contents (Elt F) → (⟨S8x1024, .i32⟩ : BufTy).Contents (Elt F)),
    binary main_arg5 main_v39 main_v40 (cmpi .slt : (⟨S8x1024, .i32⟩ : BufTy).Contents (Elt F) → (⟨S8x1024, .i32⟩ : BufTy).Contents (Elt F) → (⟨S8x1024, .i1⟩ : BufTy).Contents (Elt F)),
    nullary main_c_9 (constantI S_ 32 8192#32),
    unary main_c_9 main_v41 (broadcastInDim S8x1024 ![] bcast_S_S8x1024 : (⟨S_, .i32⟩ : BufTy).Contents (Elt F) → (⟨S8x1024, .i32⟩ : BufTy).Contents (Elt F)),
    binary main_arg5 main_v41 main_v42 (addi : (⟨S8x1024, .i32⟩ : BufTy).Contents (Elt F) → (⟨S8x1024, .i32⟩ : BufTy).Contents (Elt F) → (⟨S8x1024, .i32⟩ : BufTy).Contents (Elt F)),
    ternary main_v40 main_v42 main_arg5 main_v43 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v43 main_v44 (broadcastInDim S8x1024x1 ![0, 1] bcast_S8x1024_S8x1024x1_0_1 : (⟨S8x1024, .i32⟩ : BufTy).Contents (Elt F) → (⟨S8x1024x1, .i32⟩ : BufTy).Contents (Elt F)),
    binary main_v5 main_v44 main_v45 ((fun x i => Host.gather gather_S8192x256_S8x1024x1_S8x1024x256_2_0_n_n_0_2_1256 x i) : (⟨S8192x256, .f32⟩ : BufTy).Contents (Elt F) → (⟨S8x1024x1, .i32⟩ : BufTy).Contents (Elt F) → (⟨S8x1024x256, .f32⟩ : BufTy).Contents (Elt F)),
    binary main_v31 main_v38 main_v46 ((fun l r => Host.dotGeneral dot_S8x1024x256_S8x1024x256_S8x1024x1024_2_2_1_1_0_0 none l r) : (⟨S8x1024x256, .f32⟩ : BufTy).Contents (Elt F) → (⟨S8x1024x256, .f32⟩ : BufTy).Contents (Elt F) → (⟨S8x1024x1024, .f32⟩ : BufTy).Contents (Elt F)),
    reshape main_v46 main_v47 rfl shapeCasts_S8x1024x1024_S8x1048576 ]

/-- The last thirteen operations. -/
abbrev opsB : List (HloOp τ sig (Elt F)) :=
  [ binary main_v23 main_v45 main_v48 ((fun l r => Host.dotGeneral dot_S8x1024x256_S8x1024x256_S8x1024x1024_2_2_1_1_0_0 none l r) : (⟨S8x1024x256, .f32⟩ : BufTy).Contents (Elt F) → (⟨S8x1024x256, .f32⟩ : BufTy).Contents (Elt F) → (⟨S8x1024x1024, .f32⟩ : BufTy).Contents (Elt F)),
    reshape main_v48 main_v49 rfl shapeCasts_S8x1024x1024_S8x1048576,
    binary main_v47 main_v49 main_v50 ((fun a b => concatenate S8x2097152 1 [⟨S8x1048576, a⟩, ⟨S8x1048576, b⟩] concatenates_S8x1048576_S8x1048576_S8x2097152_d1) : (⟨S8x1048576, .f32⟩ : BufTy).Contents (Elt F) → (⟨S8x1048576, .f32⟩ : BufTy).Contents (Elt F) → (⟨S8x2097152, .f32⟩ : BufTy).Contents (Elt F)),
    reshape main_v50 main_v51 rfl shapeCasts_S8x2097152_S16777216,
    binary main_v15 main_v51 main_v52 ((fun a b => concatenate S16785408 0 [⟨S8192, a⟩, ⟨S16777216, b⟩] concatenates_S8192_S16777216_S16785408_d0) : (⟨S8192, .f32⟩ : BufTy).Contents (Elt F) → (⟨S16777216, .f32⟩ : BufTy).Contents (Elt F) → (⟨S16785408, .f32⟩ : BufTy).Contents (Elt F)),
    unary main_v52 main_v53 (Host.negf : (⟨S16785408, .f32⟩ : BufTy).Contents (Elt F) → (⟨S16785408, .f32⟩ : BufTy).Contents (Elt F)),
    unary main_v53 main_v54 (Host.exp : (⟨S16785408, .f32⟩ : BufTy).Contents (Elt F) → (⟨S16785408, .f32⟩ : BufTy).Contents (Elt F)),
    nullary main_cst_10 (constant S_ .f32 0x3F800000#32),
    unary main_cst_10 main_v55 (broadcastInDim S16785408 ![] bcast_S_S16785408 : (⟨S_, .f32⟩ : BufTy).Contents (Elt F) → (⟨S16785408, .f32⟩ : BufTy).Contents (Elt F)),
    binary main_v55 main_v54 main_v56 (addf : (⟨S16785408, .f32⟩ : BufTy).Contents (Elt F) → (⟨S16785408, .f32⟩ : BufTy).Contents (Elt F) → (⟨S16785408, .f32⟩ : BufTy).Contents (Elt F)),
    nullary main_cst_11 (constant S_ .f32 0x3F800000#32),
    unary main_cst_11 main_v57 (broadcastInDim S16785408 ![] bcast_S_S16785408 : (⟨S_, .f32⟩ : BufTy).Contents (Elt F) → (⟨S16785408, .f32⟩ : BufTy).Contents (Elt F)),
    binary main_v57 main_v56 main_v58 (Host.divf : (⟨S16785408, .f32⟩ : BufTy).Contents (Elt F) → (⟨S16785408, .f32⟩ : BufTy).Contents (Elt F) → (⟨S16785408, .f32⟩ : BufTy).Contents (Elt F)) ]

set_option maxRecDepth 8192 in
/-- The line is its two stretches one after the other. -/
theorem ops_split : (ops : List (HloOp τ sig (Elt F))) = opsA ++ opsB := rfl

variable (V : Valuation τ sig (Elt F))

/-! ## After the first sixty operations -/

set_option maxRecDepth 8192 in
set_option maxHeartbeats 4000000 in
/-- The positive scores. -/
theorem scores_after : after opsA V (Proc.devRef .tc main_v15) = val_main_v15 (F := F) (V (Proc.devRef .tc main_arg0)) (V (Proc.devRef .tc main_arg1)) (V (Proc.devRef .tc main_arg2)) := by
  after_results_simp <;> rfl

set_option maxRecDepth 8192 in
set_option maxHeartbeats 4000000 in
/-- The left vectors grouped by relation. -/
theorem grouped_left_after : after opsA V (Proc.devRef .tc main_v23) = val_main_v23 (F := F) (V (Proc.devRef .tc main_arg0)) (V (Proc.devRef .tc main_arg3)) := by
  after_results_simp <;> rfl

set_option maxRecDepth 8192 in
set_option maxHeartbeats 4000000 in
/-- The sampled right vectors. -/
theorem sampled_right_after : after opsA V (Proc.devRef .tc main_v45) = val_main_v45 (F := F) (V (Proc.devRef .tc main_arg0)) (V (Proc.devRef .tc main_arg5)) := by
  after_results_simp <;> rfl

set_option maxRecDepth 8192 in
set_option maxHeartbeats 4000000 in
/-- The first batched product, flattened per relation. -/
theorem first_product_after : after opsA V (Proc.devRef .tc main_v47) = val_main_v47 (F := F) (V (Proc.devRef .tc main_arg0)) (V (Proc.devRef .tc main_arg3)) (V (Proc.devRef .tc main_arg4)) := by
  after_results_simp <;> rfl

/-! ## The whole line, at the two result buffers -/

set_option maxRecDepth 8192 in
set_option maxHeartbeats 4000000 in
/-- The first result. -/
theorem logits_read : after (ops (F := F)) V (Proc.devRef .tc main_v52)
    = val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, StableHlo.after_append]
  have h15 := scores_after V
  have h23 := grouped_left_after V
  have h45 := sampled_right_after V
  have h47 := first_product_after V
  generalize after opsA V = W at h15 h23 h45 h47 ⊢
  after_results
  rw [h15, h23, h45, h47]
  rfl

set_option maxRecDepth 8192 in
set_option maxHeartbeats 4000000 in
/-- The second result. -/
theorem probs_read : after (ops (F := F)) V (Proc.devRef .tc main_v58)
    = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, StableHlo.after_append]
  have h15 := scores_after V
  have h23 := grouped_left_after V
  have h45 := sampled_right_after V
  have h47 := first_product_after V
  generalize after opsA V = W at h15 h23 h45 h47 ⊢
  after_results
  rw [h15, h23, h45, h47]
  rfl

/-! ## The run -/

set_option maxRecDepth 8192 in
set_option maxHeartbeats 8000000 in
/-- From any memory with zero counters every weakly fair execution of the reference terminates with its two results
    at its stage functions of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v52).trans (logits_read (launchContents m c)),
       (h c main_v58).trans (probs_read (launchContents m c)),
       (h c main_arg0).trans (by after_results_simp <;> rfl),
       (h c main_arg1).trans (by after_results_simp <;> rfl),
       (h c main_arg2).trans (by after_results_simp <;> rfl),
       (h c main_arg3).trans (by after_results_simp <;> rfl),
       (h c main_arg4).trans (by after_results_simp <;> rfl),
       (h c main_arg5).trans (by after_results_simp <;> rfl)⟩)
    (run_seq scopedRefs_eq scopedSems_eq defs main (fun _ => ops) main_eq (fun _ => ops_sub) m ρ)

end Cert.ReferenceIdeal.TwoStretches

end
-- ==== Proof.Boundaries.lean ====
/-
  The buffer contents at the boundaries of the program's run, read back to the two regions' arrays and to the
  arguments. The program is: a stretch of host operations (the embeddings re-laid as 8192 rows of 1024, the
  translations gathered by relation), the first region (node vectors, positive scores and their probabilities),
  three stretches (the rows grouped by relation, the sampled rows), the second region (negative scores and their
  probabilities), and a last stretch that flattens the second region's two arrays and joins each behind the first
  region's scores resp. probabilities. No stretch after the first region writes that region's score arrays, and the
  second region does not have them among its arrays, so they reach the last stretch as the first region left them.
-/
import proofs.«404157_j18021682774350_2_alg».proof.Proof.Gen.KernelIdeal.Frame
import Idealize.ShloMosaic.Lib.StableHlo.Run
import Idealize.ShloMosaic.PureOps.Ideal

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the last stretch leaves in the two result buffers -/

/-- The first result: the positive scores followed by the flattened negative scores. -/
theorem logits_joined (c : Dev nD) :
    W7 m ρ c (Proc.devRef .tc main_v29)
      = concatenate S16785408 0 [⟨S8192, W6 m ρ c (Proc.devRef .tc main_v8_2)⟩,
          ⟨S16777216, shapeCast S16777216 (W6 m ρ c (Proc.devRef .tc main_v27_0)) shapeCasts_S8x2x1024x1024_S16777216⟩]
          concatenates_S8192_S16777216_S16785408_d0 := by
  show StableHlo.after hostOps2 (W6 m ρ c) (Proc.devRef .tc main_v29) = _
  after_results
  rfl

/-- The second result: the positive probabilities followed by the flattened negative probabilities. -/
theorem probs_joined (c : Dev nD) :
    W7 m ρ c (Proc.devRef .tc main_v31)
      = concatenate S16785408 0 [⟨S8192, W6 m ρ c (Proc.devRef .tc main_v8_3)⟩,
          ⟨S16777216, shapeCast S16777216 (W6 m ρ c (Proc.devRef .tc main_v27_1)) shapeCasts_S8x2x1024x1024_S16777216⟩]
          concatenates_S8192_S16777216_S16785408_d0 := by
  show StableHlo.after hostOps2 (W6 m ρ c) (Proc.devRef .tc main_v31) = _
  after_results
  rfl

/-! ## The first region's score arrays reach the last stretch untouched -/

/-- The positive scores after the second region are the first region's fourth output array. -/
theorem pos_carried (c : Dev nD) : W6 m ρ c (Proc.devRef .tc main_v8_2) = (dat0 (V1 m ρ) c).arrAt 4 cfg0.N :=
  calc W6 m ρ c (Proc.devRef .tc main_v8_2)
    _ = W5 m ρ c (Proc.devRef .tc main_v8_2) := W6_of_ne m ρ c main_v8_2 (by decide)
    _ = W4 m ρ c (Proc.devRef .tc main_v8_2) := StableHlo.after_of_forall_not_mem _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8_2) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v8_2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4

/-- The positive probabilities after the second region are the first region's fifth output array. -/
theorem sig_carried (c : Dev nD) : W6 m ρ c (Proc.devRef .tc main_v8_3) = (dat0 (V1 m ρ) c).arrAt 5 cfg0.N :=
  calc W6 m ρ c (Proc.devRef .tc main_v8_3)
    _ = W5 m ρ c (Proc.devRef .tc main_v8_3) := W6_of_ne m ρ c main_v8_3 (by decide)
    _ = W4 m ρ c (Proc.devRef .tc main_v8_3) := StableHlo.after_of_forall_not_mem _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8_3) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v8_3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5

/-! ## The regions' arrays by name -/

/-- The left node vectors after the first region. -/
theorem lhs_left0 (c : Dev nD) : W2 m ρ c (Proc.devRef .tc main_v8_0) = (dat0 (V1 m ρ) c).arrAt 2 cfg0.N := W2_arr m ρ c 2
/-- The right node vectors after the first region. -/
theorem rhs_left0 (c : Dev nD) : W2 m ρ c (Proc.devRef .tc main_v8_1) = (dat0 (V1 m ρ) c).arrAt 3 cfg0.N := W2_arr m ρ c 3
/-- The negative scores after the second region. -/
theorem negs_left1 (c : Dev nD) : W6 m ρ c (Proc.devRef .tc main_v27_0) = (dat1 (V5 m ρ) c).arrAt 4 cfg1.N := W6_arr m ρ c 4
/-- The negative probabilities after the second region. -/
theorem negsig_left1 (c : Dev nD) : W6 m ρ c (Proc.devRef .tc main_v27_1) = (dat1 (V5 m ρ) c).arrAt 5 cfg1.N := W6_arr m ρ c 5

/-! ## What the first region is entered with -/

/-- jnp's reading of a relation index: a negative index counts from the end of the 8 translations. -/
def wrapRel (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 8#32))) idx)

/-- The embeddings as the first region finds them: the argument re-laid as 8192 rows of 1024. -/
theorem rows_entry (c : Dev nD) :
    V1 m ρ c main_v0 = shapeCast S8192x1024 (m ((c.tc : Thread nD τ).loc main_arg0)) shapeCasts_S16384x2x256_S8192x1024 := by
  show StableHlo.after hostOps0 (W0 m ρ c) (Proc.devRef .tc main_v0) = _
  after_results
  rfl

/-- The translations as the first region finds them: one row of the table per pair, by its relation. -/
theorem shift_entry (c : Dev nD) :
    V1 m ρ c main_v7 = Host.gather gather_S8x256_S8192x1_S8192x256_1_0_n_n_0_1_1256 (m ((c.tc : Thread nD τ).loc main_arg1))
      (wrapRel (m ((c.tc : Thread nD τ).loc main_arg2))) := by
  show StableHlo.after hostOps0 (W0 m ρ c) (Proc.devRef .tc main_v7) = _
  after_results
  rfl

end Cert.KernelIdeal.Boundaries

end
-- ==== Proof.Spec.lean ====
/-
  The scores of the translation model, index by index, on the extended reals.

  A row of the 8192 x 1024 array holds one (left node, right node) pair: four consecutive stretches of 256
  numbers, the two feature vectors of the left node and then the two of the right node. A node's vector is
  the sum of its two feature vectors. The positive score of a pair is the inner product of the left vector with
  the right vector shifted by the pair's translation. The negative scores of a relation are the inner products
  of its grouped right (resp. left) vectors with its sampled left (resp. right) vectors. Every probability is
  the logistic function of its score, `Ideal.logistic`, which on the extended reals is 1 / (1 + e^(-x)) with
  the value 0 at -inf and 1 at +inf.
-/
import Idealize.ShloMosaic.PureOps.Ideal
import Idealize.ShloMosaic.Lib.ValueIdx

noncomputable section

namespace Cert.Scores

open Idealize.ShloMosaic Idealize.ShloMosaic.ValueIdx

/-- The left node's vector of pair `r` at coordinate `k`: its two feature vectors added. -/
def lhsAt (X : (⟨2, ![8192, 1024]⟩ : Shape).Idx → EReal) (r : Fin 8192) (k : Fin 256) : EReal :=
  X (ix2 r (⟨k.val, by omega⟩ : Fin 1024)) + X (ix2 r (⟨256 + k.val, by omega⟩ : Fin 1024))

/-- The right node's vector of pair `r` at coordinate `k`. -/
def rhsAt (X : (⟨2, ![8192, 1024]⟩ : Shape).Idx → EReal) (r : Fin 8192) (k : Fin 256) : EReal :=
  X (ix2 r (⟨512 + k.val, by omega⟩ : Fin 1024)) + X (ix2 r (⟨768 + k.val, by omega⟩ : Fin 1024))

/-- The positive score of pair `r`: the left vector against the right vector shifted by the translation `T`. -/
def posAt (X : (⟨2, ![8192, 1024]⟩ : Shape).Idx → EReal) (T : (⟨2, ![8192, 256]⟩ : Shape).Idx → EReal)
    (r : Fin 8192) : EReal :=
  ∑ k : Fin 256, lhsAt X r k * (rhsAt X r k + T (ix2 r k))

/-- The negative scores of relation `g`: half 0 pairs the grouped right vectors `SR` with the sampled left
    vectors `PL`, half 1 the grouped left vectors `SL` with the sampled right vectors `PR`; `p` is the
    grouped row and `n` the sample. -/
def negAt (SL SR PL PR : (⟨3, ![8, 1024, 256]⟩ : Shape).Idx → EReal)
    (g : Fin 8) (h : Fin 2) (p n : Fin 1024) : EReal :=
  if h.val = 0 then ∑ k : Fin 256, SR (ix3 g p k) * PL (ix3 g n k)
  else ∑ k : Fin 256, SL (ix3 g p k) * PR (ix3 g n k)

end Cert.Scores

end
-- ==== Proof.NodePairs.lean ====
/-
  The first call of the program, index by index.

  The first call walks the 8192 pairs in four blocks of 2048 rows. From a block of the pairs' array it cuts four
  stretches of 256 columns, adds the first two (the left vector) and the last two (the right vector), shifts the
  right vector by the block of translations, multiplies lane by lane, sums the 256 lanes of each row (the
  positive score) and applies the logistic function (the probability). No row's results depend on another row,
  and block `t` holds rows 2048 t … 2048 t + 2047, so each of the four result arrays is one function of the two
  input arrays as the call finds them: the left vectors, the right vectors, the positive scores and their
  probabilities of `Cert.Scores`.

  The steps: the body's four values at an index of a block, as terms of the block's entries (`left_at`, `right_at`,
  `score_at`, `prob_at`); a block's entry as an entry of its array (`pairs_block`, `shifts_block`), hence the body's
  values as the specification's at row 2048 t + p (`left_block`, `right_block`, `score_block`); and per result array:
  where a block's element sits in the array, what a point writes back, which indices a block holds, that the four
  blocks tile the array, and the array after the call.
-/
import proofs.«404157_j18021682774350_2_alg».proof.Proof.Gen.KernelIdeal.Frame
import proofs.«404157_j18021682774350_2_alg».proof.Proof.Spec
import Idealize.ShloMosaic.Lib.Pipeline.Value
import Idealize.ShloMosaic.Lib.ValueLayout
import Idealize.ShloMosaic.PureOps.Ideal.Laws

noncomputable section

namespace Cert.KernelIdeal.NodePairs

open Cert.KernelIdeal Cert.KernelIdeal.Gen Idealize.ShloMosaic Idealize.ShloMosaic.ValueIdx
open Idealize.ShloMosaic.TcCoe
open Idealize.ShloMosaic.Pipeline (Dat)

/-! ## One block row: the body's four values at an index of the block -/

/-- A stretch of 256 columns of the block starting at column `o`, read at (p, q), is the block at (p, o + q). -/
theorem stretch_at (o : Nat) (x : Vec Ideal S2048x1024 .f32) (h : S2048x1024.Slices ![0, o] S2048x256)
    (p : Fin 2048) (q : Fin 256) (k : Fin 1024) (hk : k.val = o + q.val) :
    extractStridedSlice S2048x256 ![0, o] (shapeCast S2048x1024 x shapeCasts_S2048x1024_S2048x1024) h (ix2 p q)
      = x (ix2 p k) := by
  rw [shapeCast_self]
  exact slice2_axis1_apply o x h p q k hk

/-- The left vector of block row `p` at coordinate `q`: the first two stretches added. -/
theorem left_at (x : Vec Ideal S2048x1024 .f32) (p : Fin 2048) (q : Fin 256) :
    k0_pay2 x (ix2 p q) = x (ix2 p (⟨q.val, by omega⟩ : Fin 1024)) + x (ix2 p (⟨256 + q.val, by omega⟩ : Fin 1024)) := by
  unfold k0_pay2 k0_pay1
  exact congrArg₂ (· + ·) (stretch_at 0 x _ p q _ (Nat.zero_add _).symm) (stretch_at 256 x _ p q _ rfl)

/-- The right vector of block row `p` at coordinate `q`: the last two stretches added. -/
theorem right_at (x : Vec Ideal S2048x1024 .f32) (p : Fin 2048) (q : Fin 256) :
    k0_pay3 x (ix2 p q) = x (ix2 p (⟨512 + q.val, by omega⟩ : Fin 1024)) + x (ix2 p (⟨768 + q.val, by omega⟩ : Fin 1024)) := by
  unfold k0_pay3 k0_pay1
  exact congrArg₂ (· + ·) (stretch_at 512 x _ p q _ rfl) (stretch_at 768 x _ p q _ rfl)

/-- The index the lane sum inserts: row `p`, lane `q`. -/
theorem lane_index (p : Fin 2048) (q : Fin 256) :
    reduces_S2048x256_S2048.lift (ix1 p) q = ix2 p q := by
  funext a
  match a with
  | ⟨0, _⟩ => rfl
  | ⟨1, _⟩ => rfl

/-- The score of block row `p`: over the 256 lanes, the left vector times the right vector shifted by the
    row's translation `y`, summed (the sum starts from the zero word, the neutral element of the addition). -/
theorem score_at (x : Vec Ideal S2048x1024 .f32) (y : Vec Ideal S2048x256 .f32) (p : Fin 2048) :
    k0_pay4 x y (ix1 p) = ∑ q : Fin 256, k0_pay2 x (ix2 p q) * (k0_pay3 x (ix2 p q) + y (ix2 p q)) := by
  unfold k0_pay4
  refine (Ideal.multiReduction_add_single (φ := .f32) _ 0x00000000#32 reduces_S2048x256_S2048 (.inl rfl) rfl (ix1 p)).trans ?_
  refine Finset.sum_congr rfl fun (q : Fin 256) _ => ?_
  rw [lane_index p q, shapeCast_self]
  rfl

/-- The probability of block row `p`: the logistic function of its score. -/
theorem prob_at (x : Vec Ideal S2048x1024 .f32) (y : Vec Ideal S2048x256 .f32) (p : Fin 2048) :
    k0_pay5 x y (ix1 p) = Ideal.logistic (k0_pay4 x y (ix1 p)) := rfl

/-! ## From blocks to arrays -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- Every window of the first call moves down the rows with the grid point: at point `t` its block is block `t`
    along the rows and, for the matrices, the one block along the columns (decided over the four points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val
    ∧ win0_5.index t (0 : Fin 1) = t.val
    ∧ t.val < 4 :=
  (by decide +kernel : ∀ t : Fin grid0.N, _)

/-- The pairs' block at point `t`, at (p, k), is the pairs' array at row 2048 t + p, column k. -/
theorem pairs_block (c : Dev nD) (t : Fin cfg0.N) (p : Fin 2048) (k : Fin 1024) (r : Fin 8192)
    (hr : r.val = 2048 * t.val + p.val) :
    (iblk0 V c 0 t : Vec Ideal S2048x1024 .f32) (ix2 p k) = (V c main_v0 : S8192x1024.Idx → EReal) (ix2 r k) := by
  obtain ⟨e0, e1, -⟩ := block_index t
  unfold iblk0
  rw [View.read_apply]
  show V c main_v0 _ = V c main_v0 _
  congr 1
  funext a
  apply Fin.ext
  match a with
  | ⟨0, _⟩ => show win0_0.index t (0 : Fin 2) * 2048 + 1 * p.val = r.val; omega
  | ⟨1, _⟩ => show win0_0.index t (1 : Fin 2) * 1024 + 1 * k.val = k.val; omega

/-- The translations' block at point `t`, at (p, q), is the translations' array at row 2048 t + p, column q. -/
theorem shifts_block (c : Dev nD) (t : Fin cfg0.N) (p : Fin 2048) (q : Fin 256) (r : Fin 8192)
    (hr : r.val = 2048 * t.val + p.val) :
    (iblk0 V c 1 t : Vec Ideal S2048x256 .f32) (ix2 p q) = (V c main_v7 : S8192x256.Idx → EReal) (ix2 r q) := by
  obtain ⟨-, -, e0, e1, -⟩ := block_index t
  unfold iblk0
  rw [View.read_apply]
  show V c main_v7 _ = V c main_v7 _
  congr 1
  funext a
  apply Fin.ext
  match a with
  | ⟨0, _⟩ => show win0_1.index t (0 : Fin 2) * 2048 + 1 * p.val = r.val; omega
  | ⟨1, _⟩ => show win0_1.index t (1 : Fin 2) * 256 + 1 * q.val = q.val; omega

/-- Row `p` of the pairs' block at point `t` gives the left vector of pair 2048 t + p … -/
theorem left_block (c : Dev nD) (t : Fin cfg0.N) (p : Fin 2048) (q : Fin 256) (r : Fin 8192)
    (hr : r.val = 2048 * t.val + p.val) :
    k0_pay2 (iblk0 V c 0 t : Vec Ideal S2048x1024 .f32) (ix2 p q) = Cert.Scores.lhsAt (V c main_v0) r q := by
  refine (left_at (iblk0 V c 0 t) p q).trans ?_
  unfold Cert.Scores.lhsAt
  rw [pairs_block V c t p _ r hr, pairs_block V c t p _ r hr]

/-- … and its right vector. -/
theorem right_block (c : Dev nD) (t : Fin cfg0.N) (p : Fin 2048) (q : Fin 256) (r : Fin 8192)
    (hr : r.val = 2048 * t.val + p.val) :
    k0_pay3 (iblk0 V c 0 t : Vec Ideal S2048x1024 .f32) (ix2 p q) = Cert.Scores.rhsAt (V c main_v0) r q := by
  refine (right_at (iblk0 V c 0 t) p q).trans ?_
  unfold Cert.Scores.rhsAt
  rw [pairs_block V c t p _ r hr, pairs_block V c t p _ r hr]

/-- The score the body computes for row `p` of the blocks at point `t` is the positive score of pair 2048 t + p. -/
theorem score_block (c : Dev nD) (t : Fin cfg0.N) (p : Fin 2048) (r : Fin 8192)
    (hr : r.val = 2048 * t.val + p.val) :
    k0_pay4 (iblk0 V c 0 t : Vec Ideal S2048x1024 .f32) (iblk0 V c 1 t : Vec Ideal S2048x256 .f32) (ix1 p)
      = Cert.Scores.posAt (V c main_v0) (V c main_v7) r := by
  refine (score_at (iblk0 V c 0 t) (iblk0 V c 1 t) p).trans ?_
  unfold Cert.Scores.posAt
  refine Finset.sum_congr rfl fun q _ => ?_
  rw [left_block V c t p q r hr, right_block V c t p q r hr, shifts_block V c t p q r hr]

/-! ### The left vectors (window 2) -/

/-- The left vectors of all 8192 pairs as one array. -/
abbrev leftArr (X : S8192x1024.Idx → EReal) : S8192x256.Idx → EReal :=
  fun i => Cert.Scores.lhsAt X (i 0) (i 1)

/-- Row `p`, column `q` of block `t` is row 2048 t + p, column q of the array. -/
theorem left_emb (t : Fin cfg0.N) (p : Fin 2048) (q : Fin 256) (r : Fin 8192) (hr : r.val = 2048 * t.val + p.val) :
    (((cfg0.win 2).blk t).view.emb (ix2 p q) : S8192x256.Idx) = ix2 r q := by
  obtain ⟨-, -, -, -, e0, e1, -⟩ := block_index t
  funext a
  apply Fin.ext
  match a with
  | ⟨0, _⟩ => show win0_2.index t (0 : Fin 2) * 2048 + 1 * p.val = r.val; omega
  | ⟨1, _⟩ => show win0_2.index t (1 : Fin 2) * 256 + 1 * q.val = q.val; omega

/-- The block point `t` sends back to the array: the left vectors of pairs 2048 t … 2048 t + 2047, read off the
    pairs' array as the call finds it. -/
theorem left_flushed (c : Dev nD) (t : Fin cfg0.N) :
    (dat0 V c).flushed 2 t = ((cfg0.win 2).blk t).view.read (Elt Ideal) (leftArr (V c main_v0)) := by
  show (cfg0.win 2).cut (grid0.coords t) ((dat0 V c).after 2 t) = _
  rw [after0_2]
  unfold out0_2
  rw [View.canon_unit_zero zero_offsets2]
  simp only [View.ld_unit_zero (S := S2048x1024) zero_offsets2]
  have hN : t.val < 4 := (block_index t).2.2.2.2.2.2.2.2.2.2
  funext j
  obtain ⟨p, q, rfl⟩ : ∃ (p : Fin 2048) (q : Fin 256), (j : S2048x256.Idx) = ix2 p q :=
    ⟨(j : S2048x256.Idx) 0, (j : S2048x256.Idx) 1, eq_ix2 (j : S2048x256.Idx)⟩
  have hr : 2048 * t.val + p.val < 8192 := by omega
  rw [View.read_apply, left_emb t p q ⟨_, hr⟩ rfl]
  exact left_block V c t p q ⟨_, hr⟩ rfl

/-- Membership in the block of point `t`, axis by axis: a coordinate lies from the block's first index on that axis
    up to its last. -/
theorem left_mem (t : Fin cfg0.N) (i : S8192x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v8_0).slice (win0_2.rect t)).set ↔ _
  rw [View.set_slice_whole, Rect.mem_set_unit]
  exact Iff.rfl

/-- Row `r` lies in the block of point `r / 2048`: the four blocks tile the array. -/
theorem left_cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, e0, e1, -⟩ := block_index t
  refine ⟨t, flush0_2 t, ?_⟩
  rw [left_mem]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After the call the third array holds every pair's left vector. -/
theorem left_final (c : Dev nD) : (dat0 V c).arrAt 2 cfg0.N = leftArr (V c main_v0) :=
  (dat0 V c).arrAt_eq_of_cover 2 (leftArr (V c main_v0)) (fun t _ => left_flushed V c t) left_cover

/-- Entry (r, k) of the third array after the call is coordinate `k` of pair `r`'s left vector. -/
theorem lhs_arr (c : Dev nD) (r : Fin 8192) (k : Fin 256) :
    (dat0 V c).arrAt 2 cfg0.N (ix2 r k) = Cert.Scores.lhsAt (V c main_v0) r k :=
  congrFun (left_final V c) (ix2 r k)

/-! ### The right vectors (window 3) -/

/-- The right vectors of all 8192 pairs as one array. -/
abbrev rightArr (X : S8192x1024.Idx → EReal) : S8192x256.Idx → EReal :=
  fun i => Cert.Scores.rhsAt X (i 0) (i 1)

/-- Row `p`, column `q` of block `t` is row 2048 t + p, column q of the array. -/
theorem right_emb (t : Fin cfg0.N) (p : Fin 2048) (q : Fin 256) (r : Fin 8192) (hr : r.val = 2048 * t.val + p.val) :
    (((cfg0.win 3).blk t).view.emb (ix2 p q) : S8192x256.Idx) = ix2 r q := by
  obtain ⟨-, -, -, -, -, -, e0, e1, -⟩ := block_index t
  funext a
  apply Fin.ext
  match a with
  | ⟨0, _⟩ => show win0_3.index t (0 : Fin 2) * 2048 + 1 * p.val = r.val; omega
  | ⟨1, _⟩ => show win0_3.index t (1 : Fin 2) * 256 + 1 * q.val = q.val; omega

/-- The block point `t` sends back to the array: the right vectors of pairs 2048 t … 2048 t + 2047, read off the
    pairs' array as the call finds it. -/
theorem right_flushed (c : Dev nD) (t : Fin cfg0.N) :
    (dat0 V c).flushed 3 t = ((cfg0.win 3).blk t).view.read (Elt Ideal) (rightArr (V c main_v0)) := by
  show (cfg0.win 3).cut (grid0.coords t) ((dat0 V c).after 3 t) = _
  rw [after0_3]
  unfold out0_3
  rw [View.canon_unit_zero zero_offsets2]
  simp only [View.ld_unit_zero (S := S2048x1024) zero_offsets2]
  have hN : t.val < 4 := (block_index t).2.2.2.2.2.2.2.2.2.2
  funext j
  obtain ⟨p, q, rfl⟩ : ∃ (p : Fin 2048) (q : Fin 256), (j : S2048x256.Idx) = ix2 p q :=
    ⟨(j : S2048x256.Idx) 0, (j : S2048x256.Idx) 1, eq_ix2 (j : S2048x256.Idx)⟩
  have hr : 2048 * t.val + p.val < 8192 := by omega
  rw [View.read_apply, right_emb t p q ⟨_, hr⟩ rfl]
  exact right_block V c t p q ⟨_, hr⟩ rfl

/-- Membership in the block of point `t`, axis by axis: a coordinate lies from the block's first index on that axis
    up to its last. -/
theorem right_mem (t : Fin cfg0.N) (i : S8192x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v8_1).slice (win0_3.rect t)).set ↔ _
  rw [View.set_slice_whole, Rect.mem_set_unit]
  exact Iff.rfl

/-- Row `r` lies in the block of point `r / 2048`: the four blocks tile the array. -/
theorem right_cover (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, -, -, e0, e1, -⟩ := block_index t
  refine ⟨t, flush0_3 t, ?_⟩
  rw [right_mem]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- After the call the fourth array holds every pair's right vector. -/
theorem right_final (c : Dev nD) : (dat0 V c).arrAt 3 cfg0.N = rightArr (V c main_v0) :=
  (dat0 V c).arrAt_eq_of_cover 3 (rightArr (V c main_v0)) (fun t _ => right_flushed V c t) right_cover

/-- Entry (r, k) of the fourth array after the call is coordinate `k` of pair `r`'s right vector. -/
theorem rhs_arr (c : Dev nD) (r : Fin 8192) (k : Fin 256) :
    (dat0 V c).arrAt 3 cfg0.N (ix2 r k) = Cert.Scores.rhsAt (V c main_v0) r k :=
  congrFun (right_final V c) (ix2 r k)

/-! ### The positive scores (window 4) -/

/-- The positive scores of all 8192 pairs as one array. -/
abbrev scoreArr (X : S8192x1024.Idx → EReal) (T : S8192x256.Idx → EReal) : S8192.Idx → EReal :=
  fun i => Cert.Scores.posAt X T (i 0)

/-- Entry `p` of block `t` is entry 2048 t + p of the array. -/
theorem score_emb (t : Fin cfg0.N) (p : Fin 2048) (r : Fin 8192) (hr : r.val = 2048 * t.val + p.val) :
    (((cfg0.win 4).blk t).view.emb (ix1 p) : S8192.Idx) = ix1 r := by
  obtain ⟨-, -, -, -, -, -, -, -, e0, -⟩ := block_index t
  funext a
  apply Fin.ext
  match a with
  | ⟨0, _⟩ => show win0_4.index t (0 : Fin 1) * 2048 + 1 * p.val = r.val; omega

/-- The block point `t` sends back to the array: the positive scores of pairs 2048 t … 2048 t + 2047, read off the
    two input arrays as the call finds them. -/
theorem score_flushed (c : Dev nD) (t : Fin cfg0.N) :
    (dat0 V c).flushed 4 t
      = ((cfg0.win 4).blk t).view.read (Elt Ideal) (scoreArr (V c main_v0) (V c main_v7)) := by
  show (cfg0.win 4).cut (grid0.coords t) ((dat0 V c).after 4 t) = _
  rw [after0_4]
  unfold out0_4
  rw [View.canon_unit_zero zero_offsets1]
  simp only [View.ld_unit_zero (S := S2048x1024) zero_offsets2, View.ld_unit_zero (S := S2048x256) zero_offsets2]
  have hN : t.val < 4 := (block_index t).2.2.2.2.2.2.2.2.2.2
  funext j
  obtain ⟨p, rfl⟩ : ∃ p : Fin 2048, (j : S2048.Idx) = ix1 p := ⟨(j : S2048.Idx) 0, eq_ix1 (j : S2048.Idx)⟩
  have hr : 2048 * t.val + p.val < 8192 := by omega
  rw [View.read_apply, score_emb t p ⟨_, hr⟩ rfl]
  exact score_block V c t p ⟨_, hr⟩ rfl

/-- Membership in the block of point `t`: the index lies from the block's first index up to its last. -/
theorem score_mem (t : Fin cfg0.N) (i : S8192.Idx) :
    i ∈ ((cfg0.win 4).blk t).view.set ↔ ∀ a : Fin 1, win0_4.index t a * S2048.size a ≤ (i a).val
      ∧ (i a).val < win0_4.index t a * S2048.size a + S2048.size a := by
  show i ∈ ((View.whole main_v8_2).slice (win0_4.rect t)).set ↔ _
  rw [View.set_slice_whole, Rect.mem_set_unit]
  exact Iff.rfl

/-- Pair `r` lies in the block of point `r / 2048`: the four blocks tile the array. -/
theorem score_cover (i : S8192.Idx) :
    ∃ t : Fin cfg0.N, (cfg0.win 4).flush t = true ∧ i ∈ ((cfg0.win 4).blk t).view.set := by
  have hi0 : (i 0).val < 8192 := (i 0).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, -, -, -, -, e0, -⟩ := block_index t
  refine ⟨t, flush0_4 t, ?_⟩
  rw [score_mem]
  intro a
  match a with
  | ⟨0, _⟩ => show win0_4.index t (0 : Fin 1) * 2048 ≤ (i 0).val ∧ (i 0).val < win0_4.index t (0 : Fin 1) * 2048 + 2048; omega

/-- After the call the fifth array holds every pair's positive score. -/
theorem score_final (c : Dev nD) : (dat0 V c).arrAt 4 cfg0.N = scoreArr (V c main_v0) (V c main_v7) :=
  (dat0 V c).arrAt_eq_of_cover 4 (scoreArr (V c main_v0) (V c main_v7)) (fun t _ => score_flushed V c t) score_cover

/-- Entry `r` of the fifth array after the call is pair `r`'s positive score. -/
theorem pos_arr (c : Dev nD) (r : Fin 8192) :
    (dat0 V c).arrAt 4 cfg0.N (ix1 r) = Cert.Scores.posAt (V c main_v0) (V c main_v7) r :=
  congrFun (score_final V c) (ix1 r)

/-! ### The probabilities (window 5) -/

/-- The probabilities of all 8192 pairs as one array: the logistic function of each positive score. -/
abbrev probArr (X : S8192x1024.Idx → EReal) (T : S8192x256.Idx → EReal) : S8192.Idx → EReal :=
  fun i => Ideal.logistic (Cert.Scores.posAt X T (i 0))

/-- Entry `p` of block `t` is entry 2048 t + p of the array. -/
theorem prob_emb (t : Fin cfg0.N) (p : Fin 2048) (r : Fin 8192) (hr : r.val = 2048 * t.val + p.val) :
    (((cfg0.win 5).blk t).view.emb (ix1 p) : S8192.Idx) = ix1 r := by
  obtain ⟨-, -, -, -, -, -, -, -, -, e0, -⟩ := block_index t
  funext a
  apply Fin.ext
  match a with
  | ⟨0, _⟩ => show win0_5.index t (0 : Fin 1) * 2048 + 1 * p.val = r.val; omega

/-- The block point `t` sends back to the array: the probabilities of pairs 2048 t … 2048 t + 2047, read off the
    two input arrays as the call finds them. -/
theorem prob_flushed (c : Dev nD) (t : Fin cfg0.N) :
    (dat0 V c).flushed 5 t
      = ((cfg0.win 5).blk t).view.read (Elt Ideal) (probArr (V c main_v0) (V c main_v7)) := by
  show (cfg0.win 5).cut (grid0.coords t) ((dat0 V c).after 5 t) = _
  rw [after0_5]
  unfold out0_5
  rw [View.canon_unit_zero zero_offsets1]
  simp only [View.ld_unit_zero (S := S2048x1024) zero_offsets2, View.ld_unit_zero (S := S2048x256) zero_offsets2]
  have hN : t.val < 4 := (block_index t).2.2.2.2.2.2.2.2.2.2
  funext j
  obtain ⟨p, rfl⟩ : ∃ p : Fin 2048, (j : S2048.Idx) = ix1 p := ⟨(j : S2048.Idx) 0, eq_ix1 (j : S2048.Idx)⟩
  have hr : 2048 * t.val + p.val < 8192 := by omega
  rw [View.read_apply, prob_emb t p ⟨_, hr⟩ rfl]
  exact congrArg Ideal.logistic (score_block V c t p ⟨_, hr⟩ rfl)

/-- Membership in the block of point `t`: the index lies from the block's first index up to its last. -/
theorem prob_mem (t : Fin cfg0.N) (i : S8192.Idx) :
    i ∈ ((cfg0.win 5).blk t).view.set ↔ ∀ a : Fin 1, win0_5.index t a * S2048.size a ≤ (i a).val
      ∧ (i a).val < win0_5.index t a * S2048.size a + S2048.size a := by
  show i ∈ ((View.whole main_v8_3).slice (win0_5.rect t)).set ↔ _
  rw [View.set_slice_whole, Rect.mem_set_unit]
  exact Iff.rfl

/-- Pair `r` lies in the block of point `r / 2048`: the four blocks tile the array. -/
theorem prob_cover (i : S8192.Idx) :
    ∃ t : Fin cfg0.N, (cfg0.win 5).flush t = true ∧ i ∈ ((cfg0.win 5).blk t).view.set := by
  have hi0 : (i 0).val < 8192 := (i 0).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, -, -, -, -, -, e0, -⟩ := block_index t
  refine ⟨t, flush0_5 t, ?_⟩
  rw [prob_mem]
  intro a
  match a with
  | ⟨0, _⟩ => show win0_5.index t (0 : Fin 1) * 2048 ≤ (i 0).val ∧ (i 0).val < win0_5.index t (0 : Fin 1) * 2048 + 2048; omega

/-- After the call the sixth array holds every pair's probability. -/
theorem prob_final (c : Dev nD) : (dat0 V c).arrAt 5 cfg0.N = probArr (V c main_v0) (V c main_v7) :=
  (dat0 V c).arrAt_eq_of_cover 5 (probArr (V c main_v0) (V c main_v7)) (fun t _ => prob_flushed V c t) prob_cover

/-- Entry `r` of the sixth array after the call is the logistic function of pair `r`'s positive score. -/
theorem sig_arr (c : Dev nD) (r : Fin 8192) :
    (dat0 V c).arrAt 5 cfg0.N (ix1 r) = Ideal.logistic (Cert.Scores.posAt (V c main_v0) (V c main_v7) r) :=
  congrFun (prob_final V c) (ix1 r)

end Cert.KernelIdeal.NodePairs

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.RelationProducts.lean ====
/-
  The negative scores and their probabilities, as the second grid leaves them in its two output arrays.

  Each point of the grid of 8 handles one relation, and each relation is handled at some point. A point reads its
  relation's four [1024, 256] matrices of row vectors:
  the grouped left rows, the grouped right rows, the sampled left rows and the sampled right rows. It forms two
  [1024, 1024] matrices of inner products, each a product of one matrix with the transpose of another: entry
  (p, n) of the first is the inner product of grouped right row p with sampled left row n, entry (p, n) of the
  second the inner product of grouped left row p with sampled right row n. The two matrices are written side by
  side as halves 0 and 1 of the relation's [2, 1024, 1024] block of the first output array, and their entrywise
  logistic values at the same places of the second. Since the eight blocks tile both arrays, each array ends as one
  function of the four input arrays: the negative score of (relation, half, grouped row, sample), resp. its
  logistic value.
-/
import proofs.«404157_j18021682774350_2_alg».proof.Proof.Gen.KernelIdeal.Frame
import proofs.«404157_j18021682774350_2_alg».proof.Proof.Spec
import proofs.«404157_j18021682774350_2_alg».proof.Proof.LibDotSum
import Idealize.ShloMosaic.Lib.Pipeline.Value
import Idealize.ShloMosaic.Lib.ValueLayout

noncomputable section

namespace Cert.KernelIdeal.RelationProducts

open Cert.KernelIdeal Cert.KernelIdeal.Gen Idealize.ShloMosaic Idealize.ShloMosaic.ValueIdx
open Idealize.ShloMosaic.TcCoe
open Idealize.ShloMosaic.Pipeline (Dat)

/-! ## One product at an entry -/

/-- A matrix stored as a piece with two leading unit axes keeps its entries: the piece at (0, 0, i, j) is the
    matrix at (i, j). Both positions are the same place in row-major order. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The product of the matrix of rows `a` with the transpose of the matrix of rows `b`, at (p, n): the inner
    product of row p of `a` with row n of `b`. The contraction runs over the 256 coordinates of a row; the leading
    unit axis of each block is dropped first, and the transpose swaps the roles of n and k. -/
theorem rowDots_apply (a b : Vec Ideal S1x1024x256 .f32) (p n : Fin 1024) :
    k1_pay1 a b (ix2 p n) = ∑ k : Fin 256, a (ix3 (0 : Fin 1) p k) * b (ix3 (0 : Fin 1) n k) := by
  unfold k1_pay1
  refine (Cert.Lib.matmul_rc_apply dot_S1024x256_S256x1024_S1024x1024_1_0_0_1_n_n rfl rfl rfl rfl rfl rfl none
    (shapeCast S1024x256 a shapeCasts_S1x1024x256_S1024x256)
    (transpose S256x1024 [1, 0] (shapeCast S1024x256 b shapeCasts_S1x1024x256_S1024x256) transposes_S1024x256_p1_0_S256x1024)
    p n).trans ?_
  refine Finset.sum_congr rfl fun k _ => ?_
  exact congrArg₂ (· * ·) (shapeCast_1ab_ab_apply a shapeCasts_S1x1024x256_S1024x256 p k)
    ((transpose_ix2_apply (shapeCast S1024x256 b shapeCasts_S1x1024x256_S1024x256) transposes_S1024x256_p1_0_S256x1024 k n).trans
      (shapeCast_1ab_ab_apply b shapeCasts_S1x1024x256_S1024x256 n k))

/-- The second product has the same form as the first, on the other two blocks. -/
theorem rowDots_apply' (a b : Vec Ideal S1x1024x256 .f32) (p n : Fin 1024) :
    k1_pay2 a b (ix2 p n) = ∑ k : Fin 256, a (ix3 (0 : Fin 1) p k) * b (ix3 (0 : Fin 1) n k) :=
  rowDots_apply a b p n

/-- The first product as the piece that is stored: at (0, 0, p, n) it is the product at (p, n). -/
theorem scorePiece_apply (a b : Vec Ideal S1x1024x256 .f32) (u v : Fin 1) (p n : Fin 1024) :
    k1_pay3 a b (ix4 u v p n) = ∑ k : Fin 256, a (ix3 (0 : Fin 1) p k) * b (ix3 (0 : Fin 1) n k) := by
  unfold k1_pay3
  exact (shapeCast_ab_11ab_apply (k1_pay1 a b) shapeCasts_S1024x1024_S1x1x1024x1024 u v p n).trans (rowDots_apply a b p n)

/-- The second product as the piece that is stored. -/
theorem scorePiece_apply' (a b : Vec Ideal S1x1024x256 .f32) (u v : Fin 1) (p n : Fin 1024) :
    k1_pay4 a b (ix4 u v p n) = ∑ k : Fin 256, a (ix3 (0 : Fin 1) p k) * b (ix3 (0 : Fin 1) n k) := by
  unfold k1_pay4
  exact (shapeCast_ab_11ab_apply (k1_pay2 a b) shapeCasts_S1024x1024_S1x1x1024x1024 u v p n).trans (rowDots_apply' a b p n)

/-- The stored piece of probabilities: the logistic function applied to the first product, entry by entry. -/
theorem probPiece_apply (a b : Vec Ideal S1x1024x256 .f32) (u v : Fin 1) (p n : Fin 1024) :
    k1_pay5 a b (ix4 u v p n) = Ideal.logistic (∑ k : Fin 256, a (ix3 (0 : Fin 1) p k) * b (ix3 (0 : Fin 1) n k)) := by
  unfold k1_pay5
  refine (shapeCast_ab_11ab_apply (logistic (k1_pay1 a b)) shapeCasts_S1024x1024_S1x1x1024x1024 u v p n).trans ?_
  exact congrArg Ideal.logistic (rowDots_apply a b p n)

/-- The same for the second product. -/
theorem probPiece_apply' (a b : Vec Ideal S1x1024x256 .f32) (u v : Fin 1) (p n : Fin 1024) :
    k1_pay6 a b (ix4 u v p n) = Ideal.logistic (∑ k : Fin 256, a (ix3 (0 : Fin 1) p k) * b (ix3 (0 : Fin 1) n k)) := by
  unfold k1_pay6
  refine (shapeCast_ab_11ab_apply (logistic (k1_pay2 a b)) shapeCasts_S1024x1024_S1x1x1024x1024 u v p n).trans ?_
  exact congrArg Ideal.logistic (rowDots_apply' a b p n)

/-! ## A relation's block as one function -/

/-- Every block is read from its first row and first coordinate. -/
theorem zero_offsets : (![0, 0, 0] : Fin 3 → Nat) = fun _ => 0 := funext fun a => by fin_cases a <;> rfl

/-- Entry (half, grouped row, sample) of a relation's block of scores, from the relation's four blocks of rows
    `x0` (grouped left), `x1` (grouped right), `x2` (sampled left), `x3` (sampled right): half 0 pairs grouped
    right rows with sampled left rows, half 1 grouped left rows with sampled right rows. -/
def halfScore (x0 x1 x2 x3 : Vec Ideal S1x1024x256 .f32) (h : Fin 2) (p n : Fin 1024) : EReal :=
  if h.val = 0 then ∑ k : Fin 256, x1 (ix3 (0 : Fin 1) p k) * x2 (ix3 (0 : Fin 1) n k)
  else ∑ k : Fin 256, x0 (ix3 (0 : Fin 1) p k) * x3 (ix3 (0 : Fin 1) n k)

/-- The entry depends on its three coordinates only through their values. -/
theorem halfScore_congr (x0 x1 x2 x3 : Vec Ideal S1x1024x256 .f32) (h h' : Fin 2) (p p' n n' : Fin 1024)
    (eh : h'.val = h.val) (ep : p'.val = p.val) (en : n'.val = n.val) :
    halfScore x0 x1 x2 x3 h' p' n' = halfScore x0 x1 x2 x3 h p n := by
  obtain rfl : h' = h := Fin.ext eh
  obtain rfl : p' = p := Fin.ext ep
  obtain rfl : n' = n := Fin.ext en
  rfl

/-- The block of scores as a function of the block index (0, h, p, n). -/
def scoreBlock (x0 x1 x2 x3 : Vec Ideal S1x1024x256 .f32) : S1x2x1024x1024.Idx → EReal :=
  fun y => halfScore x0 x1 x2 x3 (y 1) (y 2) (y 3)

/-- The block of probabilities: the logistic value of each score. -/
def probBlock (x0 x1 x2 x3 : Vec Ideal S1x1024x256 .f32) : S1x2x1024x1024.Idx → EReal :=
  fun y => Ideal.logistic (halfScore x0 x1 x2 x3 (y 1) (y 2) (y 3))

/-- The piece stored at half 0 is half 0 of the block: its entry (0, 0, p, n) sits at (0, 0, p, n). -/
theorem half0_piece (x0 x1 x2 x3 : Vec Ideal S1x1024x256 .f32) (x : r1_1.shape.Idx) :
    k1_pay3 x1 x2 x = scoreBlock x0 x1 x2 x3 (r1_1.emb x) := by
  obtain ⟨u, v, p, n, rfl⟩ : ∃ (u v : Fin 1) (p n : Fin 1024), x = ix4 u v p n := ⟨x 0, x 1, x 2, x 3, eq_ix4 x⟩
  refine (scorePiece_apply x1 x2 u v p n).trans ?_
  refine Eq.trans ?_ (halfScore_congr x0 x1 x2 x3 (0 : Fin 2) _ p _ n _ ?_ ?_ ?_).symm
  · exact (if_pos rfl).symm
  · show 0 + 1 * v.val = 0; omega
  · show 0 + 1 * p.val = p.val; omega
  · show 0 + 1 * n.val = n.val; omega

/-- The piece stored at half 1 is half 1 of the block: its entry (0, 0, p, n) sits at (0, 1, p, n). -/
theorem half1_piece (x0 x1 x2 x3 : Vec Ideal S1x1024x256 .f32) (x : r1_2.shape.Idx) :
    k1_pay4 x0 x3 x = scoreBlock x0 x1 x2 x3 (r1_2.emb x) := by
  obtain ⟨u, v, p, n, rfl⟩ : ∃ (u v : Fin 1) (p n : Fin 1024), x = ix4 u v p n := ⟨x 0, x 1, x 2, x 3, eq_ix4 x⟩
  refine (scorePiece_apply' x0 x3 u v p n).trans ?_
  refine Eq.trans ?_ (halfScore_congr x0 x1 x2 x3 (1 : Fin 2) _ p _ n _ ?_ ?_ ?_).symm
  · exact (if_neg (by decide)).symm
  · show 1 + 1 * v.val = 1; omega
  · show 0 + 1 * p.val = p.val; omega
  · show 0 + 1 * n.val = n.val; omega

/-- The same two facts for the pieces of probabilities. -/
theorem half0_probPiece (x0 x1 x2 x3 : Vec Ideal S1x1024x256 .f32) (x : r1_1.shape.Idx) :
    k1_pay5 x1 x2 x = probBlock x0 x1 x2 x3 (r1_1.emb x) := by
  obtain ⟨u, v, p, n, rfl⟩ : ∃ (u v : Fin 1) (p n : Fin 1024), x = ix4 u v p n := ⟨x 0, x 1, x 2, x 3, eq_ix4 x⟩
  refine (probPiece_apply x1 x2 u v p n).trans (congrArg Ideal.logistic ?_)
  refine Eq.trans ?_ (halfScore_congr x0 x1 x2 x3 (0 : Fin 2) _ p _ n _ ?_ ?_ ?_).symm
  · exact (if_pos rfl).symm
  · show 0 + 1 * v.val = 0; omega
  · show 0 + 1 * p.val = p.val; omega
  · show 0 + 1 * n.val = n.val; omega

theorem half1_probPiece (x0 x1 x2 x3 : Vec Ideal S1x1024x256 .f32) (x : r1_2.shape.Idx) :
    k1_pay6 x0 x3 x = probBlock x0 x1 x2 x3 (r1_2.emb x) := by
  obtain ⟨u, v, p, n, rfl⟩ : ∃ (u v : Fin 1) (p n : Fin 1024), x = ix4 u v p n := ⟨x 0, x 1, x 2, x 3, eq_ix4 x⟩
  refine (probPiece_apply' x0 x3 u v p n).trans (congrArg Ideal.logistic ?_)
  refine Eq.trans ?_ (halfScore_congr x0 x1 x2 x3 (1 : Fin 2) _ p _ n _ ?_ ?_ ?_).symm
  · exact (if_neg (by decide)).symm
  · show 1 + 1 * v.val = 1; omega
  · show 0 + 1 * p.val = p.val; omega
  · show 0 + 1 * n.val = n.val; omega

/-- What the body leaves in the block of scores is `scoreBlock` of the four blocks it read: the two stored pieces are
    its two halves, and together they cover the block. -/
theorem out_scores (x0 x1 x2 x3 : Vec Ideal S1x1024x256 .f32) (y : S1x2x1024x1024.Idx) :
    out1_4 x0 x1 x2 x3 y = scoreBlock x0 x1 x2 x3 y := by
  unfold out1_4
  simp only [View.ld_unit_zero (S := S1x1024x256) zero_offsets]
  refine View.canon_apply_of_pieces (Val := Elt Ideal) (S := S1x2x1024x1024) (e := .f32) (scoreBlock x0 x1 x2 x3)
    [⟨r1_2, k1_pay4 x0 x3⟩, ⟨r1_1, k1_pay3 x1 x2⟩] ?_ y (cover1_4 _ _ y)
  exact List.forall_mem_cons.2 ⟨half1_piece x0 x1 x2 x3, List.forall_mem_cons.2 ⟨half0_piece x0 x1 x2 x3,
    fun _ hq => absurd hq List.not_mem_nil⟩⟩

/-- And in the block of probabilities, `probBlock`. -/
theorem out_probs (x0 x1 x2 x3 : Vec Ideal S1x1024x256 .f32) (y : S1x2x1024x1024.Idx) :
    out1_5 x0 x1 x2 x3 y = probBlock x0 x1 x2 x3 y := by
  unfold out1_5
  simp only [View.ld_unit_zero (S := S1x1024x256) zero_offsets]
  refine View.canon_apply_of_pieces (Val := Elt Ideal) (S := S1x2x1024x1024) (e := .f32) (probBlock x0 x1 x2 x3)
    [⟨r1_2, k1_pay6 x0 x3⟩, ⟨r1_1, k1_pay5 x1 x2⟩] ?_ y (cover1_5 _ _ y)
  exact List.forall_mem_cons.2 ⟨half1_probPiece x0 x1 x2 x3, List.forall_mem_cons.2 ⟨half0_probPiece x0 x1 x2 x3,
    fun _ hq => absurd hq List.not_mem_nil⟩⟩

/-- If each block holds relation `g`'s rows of its array (block row p is array row (g, p)), the block's entries are
    the negative scores of relation `g`. -/
theorem halfScore_of_rows (SL SR PL PR : (⟨3, ![8, 1024, 256]⟩ : Shape).Idx → EReal)
    (x0 x1 x2 x3 : Vec Ideal S1x1024x256 .f32) (g : Fin 8)
    (e0 : ∀ (p : Fin 1024) (k : Fin 256), x0 (ix3 (0 : Fin 1) p k) = SL (ix3 g p k))
    (e1 : ∀ (p : Fin 1024) (k : Fin 256), x1 (ix3 (0 : Fin 1) p k) = SR (ix3 g p k))
    (e2 : ∀ (p : Fin 1024) (k : Fin 256), x2 (ix3 (0 : Fin 1) p k) = PL (ix3 g p k))
    (e3 : ∀ (p : Fin 1024) (k : Fin 256), x3 (ix3 (0 : Fin 1) p k) = PR (ix3 g p k))
    (h : Fin 2) (p n : Fin 1024) :
    halfScore x0 x1 x2 x3 h p n = Cert.Scores.negAt SL SR PL PR g h p n := by
  unfold halfScore Cert.Scores.negAt
  simp only [e0, e1, e2, e3]

/-- A negative score depends on its four coordinates only through their values. -/
theorem negAt_congr (SL SR PL PR : (⟨3, ![8, 1024, 256]⟩ : Shape).Idx → EReal) (g g' : Fin 8) (h h' : Fin 2)
    (p p' n n' : Fin 1024) (eg : g'.val = g.val) (eh : h'.val = h.val) (ep : p'.val = p.val) (en : n'.val = n.val) :
    Cert.Scores.negAt SL SR PL PR g' h' p' n' = Cert.Scores.negAt SL SR PL PR g h p n := by
  obtain rfl : g' = g := Fin.ext eg
  obtain rfl : h' = h := Fin.ext eh
  obtain rfl : p' = p := Fin.ext ep
  obtain rfl : n' = n := Fin.ext en
  rfl

/-! ## From the blocks to the arrays -/

variable (V : (c : Dev nD) → (b : Ref sig .tc) → Buf (Elt Ideal) ((c : Thread nD τ).loc b))

/-- Where the four input blocks lie, checked by evaluation at each of the 8 points: the input blocks at point `t`
    belong to the same relation as the output block, and each starts at row 0 and coordinate 0 of that relation. -/
theorem in_blocks : ∀ t : Fin cfg1.N,
    win1_0.index t (0 : Fin 3) = win1_4.index t (0 : Fin 4) ∧ win1_0.index t (1 : Fin 3) = 0 ∧ win1_0.index t (2 : Fin 3) = 0
    ∧ win1_1.index t (0 : Fin 3) = win1_4.index t (0 : Fin 4) ∧ win1_1.index t (1 : Fin 3) = 0 ∧ win1_1.index t (2 : Fin 3) = 0
    ∧ win1_2.index t (0 : Fin 3) = win1_4.index t (0 : Fin 4) ∧ win1_2.index t (1 : Fin 3) = 0 ∧ win1_2.index t (2 : Fin 3) = 0
    ∧ win1_3.index t (0 : Fin 3) = win1_4.index t (0 : Fin 4) ∧ win1_3.index t (1 : Fin 3) = 0 ∧ win1_3.index t (2 : Fin 3) = 0 :=
  (by decide +kernel : ∀ t : Fin grid1.N, _)

/-- Where the two output blocks lie, checked the same way: both belong to one relation, numbered below 8, and take
    in both halves, all 1024 grouped rows and all 1024 samples of it. -/
theorem out_blocks : ∀ t : Fin cfg1.N,
    win1_4.index t (0 : Fin 4) ≤ 7 ∧ win1_4.index t (1 : Fin 4) = 0 ∧ win1_4.index t (2 : Fin 4) = 0 ∧ win1_4.index t (3 : Fin 4) = 0
    ∧ win1_5.index t (0 : Fin 4) = win1_4.index t (0 : Fin 4) ∧ win1_5.index t (1 : Fin 4) = 0 ∧ win1_5.index t (2 : Fin 4) = 0
    ∧ win1_5.index t (3 : Fin 4) = 0 :=
  (by decide +kernel : ∀ t : Fin grid1.N, _)

/-- Each of the 8 relations is handled at some point. -/
theorem every_relation : ∀ q : Fin 8, ∃ t : Fin cfg1.N, win1_4.index t (0 : Fin 4) = q.val :=
  (by decide +kernel : ∀ q : Fin 8, ∃ t : Fin grid1.N, win1_4.index t (0 : Fin 4) = q.val)

/-- The grouped left block of point `t` holds the rows of the point's relation `g`: block row p is array row (g, p). -/
theorem groupedLeft_rows (c : Dev nD) (t : Fin cfg1.N) (g : Fin 8) (hg : win1_4.index t (0 : Fin 4) = g.val)
    (p : Fin 1024) (k : Fin 256) :
    (iblk1 V c 0 t : Vec Ideal S1x1024x256 .f32) (ix3 (0 : Fin 1) p k) = V c main_v16 (ix3 g p k) := by
  obtain ⟨a0, a1, a2, -⟩ := in_blocks t
  show V c main_v16 (((cfg1.win 0).blk t).view.emb (ix3 (0 : Fin 1) p k)) = V c main_v16 (ix3 g p k)
  refine congrArg _ (funext fun a => Fin.ext ?_)
  match a with
  | ⟨0, _⟩ => show win1_0.index t (0 : Fin 3) * 1 + 1 * 0 = g.val; omega
  | ⟨1, _⟩ => show win1_0.index t (1 : Fin 3) * 1024 + 1 * p.val = p.val; omega
  | ⟨2, _⟩ => show win1_0.index t (2 : Fin 3) * 256 + 1 * k.val = k.val; omega

/-- The grouped right block likewise. -/
theorem groupedRight_rows (c : Dev nD) (t : Fin cfg1.N) (g : Fin 8) (hg : win1_4.index t (0 : Fin 4) = g.val)
    (p : Fin 1024) (k : Fin 256) :
    (iblk1 V c 1 t : Vec Ideal S1x1024x256 .f32) (ix3 (0 : Fin 1) p k) = V c main_v24 (ix3 g p k) := by
  obtain ⟨-, -, -, a0, a1, a2, -⟩ := in_blocks t
  show V c main_v24 (((cfg1.win 1).blk t).view.emb (ix3 (0 : Fin 1) p k)) = V c main_v24 (ix3 g p k)
  refine congrArg _ (funext fun a => Fin.ext ?_)
  match a with
  | ⟨0, _⟩ => show win1_1.index t (0 : Fin 3) * 1 + 1 * 0 = g.val; omega
  | ⟨1, _⟩ => show win1_1.index t (1 : Fin 3) * 1024 + 1 * p.val = p.val; omega
  | ⟨2, _⟩ => show win1_1.index t (2 : Fin 3) * 256 + 1 * k.val = k.val; omega

/-- The sampled left block likewise. -/
theorem sampledLeft_rows (c : Dev nD) (t : Fin cfg1.N) (g : Fin 8) (hg : win1_4.index t (0 : Fin 4) = g.val)
    (p : Fin 1024) (k : Fin 256) :
    (iblk1 V c 2 t : Vec Ideal S1x1024x256 .f32) (ix3 (0 : Fin 1) p k) = V c main_v25 (ix3 g p k) := by
  obtain ⟨-, -, -, -, -, -, a0, a1, a2, -⟩ := in_blocks t
  show V c main_v25 (((cfg1.win 2).blk t).view.emb (ix3 (0 : Fin 1) p k)) = V c main_v25 (ix3 g p k)
  refine congrArg _ (funext fun a => Fin.ext ?_)
  match a with
  | ⟨0, _⟩ => show win1_2.index t (0 : Fin 3) * 1 + 1 * 0 = g.val; omega
  | ⟨1, _⟩ => show win1_2.index t (1 : Fin 3) * 1024 + 1 * p.val = p.val; omega
  | ⟨2, _⟩ => show win1_2.index t (2 : Fin 3) * 256 + 1 * k.val = k.val; omega

/-- The sampled right block likewise. -/
theorem sampledRight_rows (c : Dev nD) (t : Fin cfg1.N) (g : Fin 8) (hg : win1_4.index t (0 : Fin 4) = g.val)
    (p : Fin 1024) (k : Fin 256) :
    (iblk1 V c 3 t : Vec Ideal S1x1024x256 .f32) (ix3 (0 : Fin 1) p k) = V c main_v26 (ix3 g p k) := by
  obtain ⟨-, -, -, -, -, -, -, -, -, a0, a1, a2⟩ := in_blocks t
  show V c main_v26 (((cfg1.win 3).blk t).view.emb (ix3 (0 : Fin 1) p k)) = V c main_v26 (ix3 g p k)
  refine congrArg _ (funext fun a => Fin.ext ?_)
  match a with
  | ⟨0, _⟩ => show win1_3.index t (0 : Fin 3) * 1 + 1 * 0 = g.val; omega
  | ⟨1, _⟩ => show win1_3.index t (1 : Fin 3) * 1024 + 1 * p.val = p.val; omega
  | ⟨2, _⟩ => show win1_3.index t (2 : Fin 3) * 256 + 1 * k.val = k.val; omega

/-- The array of negative scores as one function of the four input arrays. -/
def negArr (SL SR PL PR : (⟨3, ![8, 1024, 256]⟩ : Shape).Idx → EReal) : S8x2x1024x1024.Idx → EReal :=
  fun i => Cert.Scores.negAt SL SR PL PR (i 0) (i 1) (i 2) (i 3)

/-- The array of their probabilities. -/
def negSigArr (SL SR PL PR : (⟨3, ![8, 1024, 256]⟩ : Shape).Idx → EReal) : S8x2x1024x1024.Idx → EReal :=
  fun i => Ideal.logistic (Cert.Scores.negAt SL SR PL PR (i 0) (i 1) (i 2) (i 3))

/-- An entry of the block of point `t`, whose relation is `g`, is the negative score at the entry's place in the array:
    block index (0, h, p, n) sits at (g, h, p, n). -/
theorem block_entry (c : Dev nD) (t : Fin cfg1.N) (y : S1x2x1024x1024.Idx) (i : S8x2x1024x1024.Idx)
    (e0 : (i 0).val = win1_4.index t (0 : Fin 4)) (e1 : (i 1).val = (y 1).val) (e2 : (i 2).val = (y 2).val)
    (e3 : (i 3).val = (y 3).val) :
    scoreBlock (iblk1 V c 0 t) (iblk1 V c 1 t) (iblk1 V c 2 t) (iblk1 V c 3 t) y
      = Cert.Scores.negAt (V c main_v16) (V c main_v24) (V c main_v25) (V c main_v26) (i 0) (i 1) (i 2) (i 3) := by
  have b0 : win1_4.index t (0 : Fin 4) ≤ 7 := (out_blocks t).1
  refine (halfScore_of_rows (V c main_v16) (V c main_v24) (V c main_v25) (V c main_v26)
    (iblk1 V c 0 t) (iblk1 V c 1 t) (iblk1 V c 2 t) (iblk1 V c 3 t) ⟨win1_4.index t (0 : Fin 4), by omega⟩
    (groupedLeft_rows V c t _ rfl) (groupedRight_rows V c t _ rfl) (sampledLeft_rows V c t _ rfl)
    (sampledRight_rows V c t _ rfl) (y 1) (y 2) (y 3)).trans ?_
  exact (negAt_congr (V c main_v16) (V c main_v24) (V c main_v25) (V c main_v26)
    ⟨win1_4.index t (0 : Fin 4), by omega⟩ (i 0) (y 1) (i 1) (y 2) (i 2) (y 3) (i 3) e0 e1 e2 e3).symm

/-- The block of scores that point `t` copies back to the array is the part of `negArr` of the four input arrays
    that lies under that block. -/
theorem scores_written (c : Dev nD) (t : Fin cfg1.N) :
    (dat1 V c).flushed 4 t = ((cfg1.win 4).blk t).view.read (Elt Ideal)
      (negArr (V c main_v16) (V c main_v24) (V c main_v25) (V c main_v26)) := by
  show (cfg1.win 4).cut (grid1.coords t) ((dat1 V c).after 4 t) = _
  rw [after1_4]
  obtain ⟨b0, b1, b2, b3, -⟩ := out_blocks t
  funext y
  show out1_4 (iblk1 V c 0 t) (iblk1 V c 1 t) (iblk1 V c 2 t) (iblk1 V c 3 t) y
    = negArr (V c main_v16) (V c main_v24) (V c main_v25) (V c main_v26) (((cfg1.win 4).blk t).view.emb y)
  refine (out_scores (iblk1 V c 0 t) (iblk1 V c 1 t) (iblk1 V c 2 t) (iblk1 V c 3 t) y).trans ?_
  have h0 : (y 0).val < 1 := (y 0).isLt
  refine block_entry V c t y (((cfg1.win 4).blk t).view.emb y) ?_ ?_ ?_ ?_
  · show win1_4.index t (0 : Fin 4) * 1 + 1 * (y 0).val = win1_4.index t (0 : Fin 4); omega
  · show win1_4.index t (1 : Fin 4) * 2 + 1 * (y 1).val = (y 1).val; omega
  · show win1_4.index t (2 : Fin 4) * 1024 + 1 * (y 2).val = (y 2).val; omega
  · show win1_4.index t (3 : Fin 4) * 1024 + 1 * (y 3).val = (y 3).val; omega

/-- Likewise the block of probabilities is the part of `negSigArr` under it. -/
theorem probs_written (c : Dev nD) (t : Fin cfg1.N) :
    (dat1 V c).flushed 5 t = ((cfg1.win 5).blk t).view.read (Elt Ideal)
      (negSigArr (V c main_v16) (V c main_v24) (V c main_v25) (V c main_v26)) := by
  show (cfg1.win 5).cut (grid1.coords t) ((dat1 V c).after 5 t) = _
  rw [after1_5]
  obtain ⟨b0, b1, b2, b3, d0, d1, d2, d3⟩ := out_blocks t
  funext y
  show out1_5 (iblk1 V c 0 t) (iblk1 V c 1 t) (iblk1 V c 2 t) (iblk1 V c 3 t) y
    = negSigArr (V c main_v16) (V c main_v24) (V c main_v25) (V c main_v26) (((cfg1.win 5).blk t).view.emb y)
  refine (out_probs (iblk1 V c 0 t) (iblk1 V c 1 t) (iblk1 V c 2 t) (iblk1 V c 3 t) y).trans ?_
  have h0 : (y 0).val < 1 := (y 0).isLt
  refine congrArg Ideal.logistic (block_entry V c t y (((cfg1.win 5).blk t).view.emb y) ?_ ?_ ?_ ?_)
  · show win1_5.index t (0 : Fin 4) * 1 + 1 * (y 0).val = win1_4.index t (0 : Fin 4); omega
  · show win1_5.index t (1 : Fin 4) * 2 + 1 * (y 1).val = (y 1).val; omega
  · show win1_5.index t (2 : Fin 4) * 1024 + 1 * (y 2).val = (y 2).val; omega
  · show win1_5.index t (3 : Fin 4) * 1024 + 1 * (y 3).val = (y 3).val; omega

/-- Membership in the block of scores of point `t`, axis by axis: on axis a the coordinate lies in the stretch that
    starts at the block's number on a times the block's extent on a and has that extent. -/
theorem mem_scoreBlock (t : Fin cfg1.N) (i : S8x2x1024x1024.Idx) :
    i ∈ ((cfg1.win 4).blk t).view.set ↔ ∀ a : Fin 4, win1_4.index t a * S1x2x1024x1024.size a ≤ (i a).val
      ∧ (i a).val < win1_4.index t a * S1x2x1024x1024.size a + S1x2x1024x1024.size a := by
  show i ∈ ((View.whole main_v27_0).slice (win1_4.rect t)).set ↔ _
  rw [View.set_slice_whole, Rect.mem_set_unit]
  exact Iff.rfl

/-- The same for the array of probabilities. -/
theorem mem_probBlock (t : Fin cfg1.N) (i : S8x2x1024x1024.Idx) :
    i ∈ ((cfg1.win 5).blk t).view.set ↔ ∀ a : Fin 4, win1_5.index t a * S1x2x1024x1024.size a ≤ (i a).val
      ∧ (i a).val < win1_5.index t a * S1x2x1024x1024.size a + S1x2x1024x1024.size a := by
  show i ∈ ((View.whole main_v27_1).slice (win1_5.rect t)).set ↔ _
  rw [View.set_slice_whole, Rect.mem_set_unit]
  exact Iff.rfl

/-- Every index (g, h, p, n) of the array of scores is in the block of the point whose relation is g. -/
theorem scores_covered (i : S8x2x1024x1024.Idx) :
    ∃ t : Fin cfg1.N, (cfg1.win 4).flush t = true ∧ i ∈ ((cfg1.win 4).blk t).view.set := by
  have h0 : (i 0).val < 8 := (i 0).isLt
  have h1 : (i 1).val < 2 := (i 1).isLt
  have h2 : (i 2).val < 1024 := (i 2).isLt
  have h3 : (i 3).val < 1024 := (i 3).isLt
  obtain ⟨t, ht⟩ := every_relation ⟨(i 0).val, h0⟩
  have q0 : win1_4.index t (0 : Fin 4) = (i 0).val := ht
  obtain ⟨b0, b1, b2, b3, -⟩ := out_blocks t
  refine ⟨t, flush1_4 t, ?_⟩
  rw [mem_scoreBlock]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 2 ≤ (i 1).val ∧ (i 1).val < win1_4.index t (1 : Fin 4) * 2 + 2; omega
  | ⟨2, _⟩ => show win1_4.index t (2 : Fin 4) * 1024 ≤ (i 2).val ∧ (i 2).val < win1_4.index t (2 : Fin 4) * 1024 + 1024; omega
  | ⟨3, _⟩ => show win1_4.index t (3 : Fin 4) * 1024 ≤ (i 3).val ∧ (i 3).val < win1_4.index t (3 : Fin 4) * 1024 + 1024; omega

/-- And of the array of probabilities. -/
theorem probs_covered (i : S8x2x1024x1024.Idx) :
    ∃ t : Fin cfg1.N, (cfg1.win 5).flush t = true ∧ i ∈ ((cfg1.win 5).blk t).view.set := by
  have h0 : (i 0).val < 8 := (i 0).isLt
  have h1 : (i 1).val < 2 := (i 1).isLt
  have h2 : (i 2).val < 1024 := (i 2).isLt
  have h3 : (i 3).val < 1024 := (i 3).isLt
  obtain ⟨t, ht⟩ := every_relation ⟨(i 0).val, h0⟩
  have q0 : win1_4.index t (0 : Fin 4) = (i 0).val := ht
  obtain ⟨b0, b1, b2, b3, d0, d1, d2, d3⟩ := out_blocks t
  refine ⟨t, flush1_5 t, ?_⟩
  rw [mem_probBlock]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 2 ≤ (i 1).val ∧ (i 1).val < win1_5.index t (1 : Fin 4) * 2 + 2; omega
  | ⟨2, _⟩ => show win1_5.index t (2 : Fin 4) * 1024 ≤ (i 2).val ∧ (i 2).val < win1_5.index t (2 : Fin 4) * 1024 + 1024; omega
  | ⟨3, _⟩ => show win1_5.index t (3 : Fin 4) * 1024 ≤ (i 3).val ∧ (i 3).val < win1_5.index t (3 : Fin 4) * 1024 + 1024; omega

/-- After the eight points the array of scores is `negArr` of the four input arrays as they stood when the grid
    began: every block copied back is a part of that one function, and the blocks cover the array. -/
theorem neg_array (c : Dev nD) :
    (dat1 V c).arrAt 4 cfg1.N = negArr (V c main_v16) (V c main_v24) (V c main_v25) (V c main_v26) :=
  (dat1 V c).arrAt_eq_of_cover 4 _ (fun t _ => scores_written V c t) scores_covered

/-- And the array of probabilities is `negSigArr` of them. -/
theorem negsig_array (c : Dev nD) :
    (dat1 V c).arrAt 5 cfg1.N = negSigArr (V c main_v16) (V c main_v24) (V c main_v25) (V c main_v26) :=
  (dat1 V c).arrAt_eq_of_cover 5 _ (fun t _ => probs_written V c t) probs_covered

/-- Entry (g, h, p, n) of the array of scores is the negative score of relation g, half h, grouped row p, sample n. -/
theorem neg_arr (c : Dev nD) (g : Fin 8) (h : Fin 2) (p n : Fin 1024) :
    (dat1 V c).arrAt 4 cfg1.N (ix4 g h p n)
      = Cert.Scores.negAt (V c main_v16) (V c main_v24) (V c main_v25) (V c main_v26) g h p n :=
  congrFun (neg_array V c) (ix4 g h p n)

/-- Entry (g, h, p, n) of the array of probabilities is the logistic value of that score. -/
theorem negsig_arr (c : Dev nD) (g : Fin 8) (h : Fin 2) (p n : Fin 1024) :
    (dat1 V c).arrAt 5 cfg1.N (ix4 g h p n)
      = Ideal.logistic (Cert.Scores.negAt (V c main_v16) (V c main_v24) (V c main_v25) (V c main_v26) g h p n) :=
  congrFun (negsig_array V c) (ix4 g h p n)

end Cert.KernelIdeal.RelationProducts

end
-- ==== Proof.SampleRows.lean ====
/-
  The four arrays the second kernel is entered with, as terms of the first kernel's two results.

  The first kernel leaves the left vectors (8192 rows of 256 numbers) and the right vectors. Between the two
  kernels the program (1) permutes the rows of each by the index order, a negative index counting from the end,
  and regroups the 8192 rows as 8 groups of 1024: the grouped left and right vectors; (2) for each of the two
  sample tables, looks up row table[g, n] of the left resp. right vectors, again a negative index counting from the
  end, and would put a not-a-number in every row whose wrapped index falls outside [0, 8191]. Under the
  precondition every entry of the two sample tables lies in [-8192, 8192), so the wrapped index lies in
  [0, 8191], the range test holds at every entry, and the lookup is returned as it is: the fill value is never
  read.
-/
import proofs.«404157_j18021682774350_2_alg».proof.Proof.Gen.KernelIdeal.Frame
import proofs.«404157_j18021682774350_2_alg».proof.Defs
import proofs.«404157_j18021682774350_2_alg».proof.Proof.Gen.Pre_finite_inputs
import Idealize.ShloMosaic.Lib.ReduceAll
import Idealize.ShloMosaic.Lib.StableHlo.Run

set_option maxRecDepth 16384

noncomputable section

namespace Cert.KernelIdeal.SampleRows

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- jnp's reading of a row index: a negative index counts from the end of the 8192 rows. -/
def wrapRows (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 8192#32))) idx)

/-- The same reading of a table of 8 x 1024 sampled row indices. -/
def wrapSamples (idx : IVec S8x1024 32) : IVec S8x1024x1 32 :=
  broadcastInDim S8x1024x1 ![0, 1] bcast_S8x1024_S8x1024x1_0_1
    (select (cmpi .slt idx (broadcastInDim S8x1024 ![] bcast_S_S8x1024 (constantI S_ 32 0#32)))
      (addi idx (broadcastInDim S8x1024 ![] bcast_S_S8x1024 (constantI S_ 32 8192#32))) idx)

/-! ## Buffers a stretch of operations does not write keep their contents -/

/-- A buffer that is the result of none of a stretch's operations holds after the stretch what it held before it:
    each operation writes its one result buffer, a different one. -/
local macro "stretch_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The index order as the first kernel's exit finds it is the launch's. -/
theorem W2_main_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps hostOps0
    _ = m ((c.tc : Thread nD τ).loc main_arg3) := rfl

/-- The first sample table when the first lookup starts is the launch's. -/
theorem W3_main_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by stretch_keeps hostOps1
    _ = W1 m ρ c (Proc.devRef .tc main_arg4) := W2_of_ne m ρ c main_arg4 (by decide)
    _ = W0 m ρ c (Proc.devRef .tc main_arg4) := by stretch_keeps hostOps0
    _ = m ((c.tc : Thread nD τ).loc main_arg4) := rfl

/-- The second sample table when the second lookup starts is the launch's. -/
theorem W4_main_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := by stretch_keeps hostOps1_1
    _ = W2 m ρ c (Proc.devRef .tc main_arg5) := by stretch_keeps hostOps1
    _ = W1 m ρ c (Proc.devRef .tc main_arg5) := W2_of_ne m ρ c main_arg5 (by decide)
    _ = W0 m ρ c (Proc.devRef .tc main_arg5) := by stretch_keeps hostOps0
    _ = m ((c.tc : Thread nD τ).loc main_arg5) := rfl

/-- The left vectors when the first lookup starts are the first kernel's. -/
theorem W3_main_v8_0 (c : Dev nD) : W3 m ρ c (Proc.devRef .tc main_v8_0) = W2 m ρ c (Proc.devRef .tc main_v8_0) := by
  stretch_keeps hostOps1

/-- The right vectors when the second lookup starts are the first kernel's. -/
theorem W4_main_v8_1 (c : Dev nD) : W4 m ρ c (Proc.devRef .tc main_v8_1) = W2 m ρ c (Proc.devRef .tc main_v8_1) :=
  calc W4 m ρ c (Proc.devRef .tc main_v8_1)
    _ = W3 m ρ c (Proc.devRef .tc main_v8_1) := by stretch_keeps hostOps1_1
    _ = W2 m ρ c (Proc.devRef .tc main_v8_1) := by stretch_keeps hostOps1

/-! ## The grouped vectors -/

/-- The grouped left vectors: the first kernel's left vectors, their rows taken in the index order, as 8 groups of
    1024 rows. -/
theorem grouped_left (c : Dev nD) :
    W5 m ρ c (Proc.devRef .tc main_v16)
      = shapeCast S8x1024x256 (Host.gather gather_S8192x256_S8192x1_S8192x256_1_0_n_n_0_1_1256
          (W2 m ρ c (Proc.devRef .tc main_v8_0)) (wrapRows (m ((c.tc : Thread nD τ).loc main_arg3))))
          shapeCasts_S8192x256_S8x1024x256 := by
  have e5 : W5 m ρ c (Proc.devRef .tc main_v16) = W4 m ρ c (Proc.devRef .tc main_v16) := by stretch_keeps hostOps1_2
  have e4 : W4 m ρ c (Proc.devRef .tc main_v16) = W3 m ρ c (Proc.devRef .tc main_v16) := by stretch_keeps hostOps1_1
  have e3 : W3 m ρ c (Proc.devRef .tc main_v16)
      = shapeCast S8x1024x256 (Host.gather gather_S8192x256_S8192x1_S8192x256_1_0_n_n_0_1_1256
          (W2 m ρ c (Proc.devRef .tc main_v8_0)) (wrapRows (W2 m ρ c (Proc.devRef .tc main_arg3))))
          shapeCasts_S8192x256_S8x1024x256 := by
    show StableHlo.after hostOps1 (W2 m ρ c) (Proc.devRef .tc main_v16) = _
    after_results_simp
    unfold wrapRows
    generalize Host.gather gather_S8192x256_S8192x1_S8192x256_1_0_n_n_0_1_1256 _ _ = g
    rfl
  rw [e5, e4, e3, W2_main_arg3]

/-- The grouped right vectors: the same of the first kernel's right vectors. -/
theorem grouped_right (c : Dev nD) :
    W5 m ρ c (Proc.devRef .tc main_v24)
      = shapeCast S8x1024x256 (Host.gather gather_S8192x256_S8192x1_S8192x256_1_0_n_n_0_1_1256
          (W2 m ρ c (Proc.devRef .tc main_v8_1)) (wrapRows (m ((c.tc : Thread nD τ).loc main_arg3))))
          shapeCasts_S8192x256_S8x1024x256 := by
  have e5 : W5 m ρ c (Proc.devRef .tc main_v24) = W4 m ρ c (Proc.devRef .tc main_v24) := by stretch_keeps hostOps1_2
  have e4 : W4 m ρ c (Proc.devRef .tc main_v24) = W3 m ρ c (Proc.devRef .tc main_v24) := by stretch_keeps hostOps1_1
  have e3 : W3 m ρ c (Proc.devRef .tc main_v24)
      = shapeCast S8x1024x256 (Host.gather gather_S8192x256_S8192x1_S8192x256_1_0_n_n_0_1_1256
          (W2 m ρ c (Proc.devRef .tc main_v8_1)) (wrapRows (W2 m ρ c (Proc.devRef .tc main_arg3))))
          shapeCasts_S8192x256_S8x1024x256 := by
    show StableHlo.after hostOps1 (W2 m ρ c) (Proc.devRef .tc main_v24) = _
    after_results_simp
    unfold wrapRows
    generalize Host.gather gather_S8192x256_S8192x1_S8192x256_1_0_n_n_0_1_1256 _ _ = g
    rfl
  rw [e5, e4, e3, W2_main_arg3]

/-! ## Words and conjunctions -/

/-- Adding 8192 to a negative word no smaller than -8192 does not wrap. -/
theorem toInt_add_8192 (x : BitVec 32) (h1 : -8192 ≤ x.toInt) (hlt : x.toInt < 0) :
    (x + 8192#32).toInt = x.toInt + 8192 := by
  have hx := x.isLt
  rw [BitVec.toInt_eq_toNat_cond] at h1 hlt ⊢
  rw [BitVec.toInt_eq_toNat_cond]
  simp only [BitVec.toNat_add, BitVec.toNat_ofNat] at *
  split at h1 <;> split <;> omega

/-- A word in [-8192, 8192), with 8192 added when it is negative, lies in [0, 8191]. -/
theorem wrap_word (x : BitVec 32) (h1 : -8192 ≤ x.toInt) (h2 : x.toInt < 8192) :
    IntOp.cmpi .sge (Scalar.select (IntOp.cmpi .slt x 0#32) (IntOp.addi x 8192#32) x) 0#32 = 1#1
      ∧ IntOp.cmpi .sle (Scalar.select (IntOp.cmpi .slt x 0#32) (IntOp.addi x 8192#32) x) 8191#32 = 1#1 := by
  have h0 : (0#32 : BitVec 32).toInt = 0 := by decide
  have h8191 : (8191#32 : BitVec 32).toInt = 8191 := by decide
  rw [IntOp.cmpi_sge, IntOp.cmpi_sle, h0, h8191]
  unfold Scalar.select
  by_cases hneg : IntOp.cmpi .slt x 0#32 = 1
  · rw [if_pos hneg]
    have hlt : x.toInt < 0 := h0 ▸ IntOp.cmpi_slt.mp hneg
    have hadd : (IntOp.addi x 8192#32).toInt = x.toInt + 8192 := toInt_add_8192 x h1 hlt
    rw [hadd]; omega
  · rw [if_neg hneg]
    have hge : ¬ x.toInt < 0 := fun h => hneg (IntOp.cmpi_slt.mpr (h0.symm ▸ h))
    omega

/-- A reduction by conjunction, started at one, of an operand that is one everywhere is one. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

/-! ## The lookup of sampled rows -/

/-- Every entry of a sample table names a row, counted from the start or from the end. -/
def InRange (idx : IVec S8x1024 32) : Prop := ∀ i, -8192 ≤ (idx i).toInt ∧ (idx i).toInt < 8192

/-- The lookup as the program makes it: row w[g, n] of x where 0 <= w[g, n] <= 8191, and a not-a-number row
    elsewhere. -/
def takeRows (x : FVec Ideal S8192x256 .f32) (w : IVec S8x1024x1 32) : FVec Ideal S8x1024x256 .f32 :=
  select (broadcastInDim S8x1024x256 ![0, 1] bcast_S8x1024_S8x1024x256_0_1
      (Host.reduce IntOp.andi
        (andi (cmpi .sge w (broadcastInDim S8x1024x1 ![] bcast_S_S8x1024x1 (constantI S_ 32 0#32)))
              (cmpi .sle w (broadcastInDim S8x1024x1 ![0, 1, 2] bcast_S1x1x1_S8x1024x1_0_1_2
                (broadcastInDim S1x1x1 ![2] bcast_S1_S1x1x1_2 (constantI S1 32 8191#32)))))
        (constantI S_ 1 1#1) reducesTo_S8x1024x1_S8x1024_d2 h_S_))
    (Host.gather gather_S8192x256_S8x1024x1_S8x1024x256_2_0_n_n_0_2_1256 x w)
    (broadcastInDim S8x1024x256 ![] bcast_S_S8x1024x256 (constant (F := Ideal) S_ .f32 0x7FC00000#32))

/-- With every entry of the table in range the wrapped index passes the range test at every entry, so the lookup
    is the plain one. -/
theorem takeRows_eq (x : FVec Ideal S8192x256 .f32) (idx : IVec S8x1024 32) (h : InRange idx) :
    takeRows x (wrapSamples idx)
      = Host.gather gather_S8192x256_S8x1024x1_S8x1024x256_2_0_n_n_0_2_1256 x (wrapSamples idx) := by
  unfold takeRows
  generalize Host.gather gather_S8192x256_S8x1024x1_S8x1024x256_2_0_n_n_0_2_1256 x (wrapSamples idx) = g
  -- the two comparisons at an entry are those of the wrapped word
  have hX : ∀ i : S8x1024x1.Idx,
      (andi (cmpi .sge (wrapSamples idx) (broadcastInDim S8x1024x1 ![] bcast_S_S8x1024x1 (constantI S_ 32 0#32)))
              (cmpi .sle (wrapSamples idx) (broadcastInDim S8x1024x1 ![0, 1, 2] bcast_S1x1x1_S8x1024x1_0_1_2
                (broadcastInDim S1x1x1 ![2] bcast_S1_S1x1x1_2 (constantI S1 32 8191#32))))) i = 1#1 := by
    intro i
    refine IntOp.andi_eq_one.mpr ?_
    exact wrap_word (idx _) (h _).1 (h _).2
  funext j
  -- so their conjunction over the last axis is one at every (g, n), and so is its copy along the 256 columns
  have hM : (broadcastInDim S8x1024x256 ![0, 1] bcast_S8x1024_S8x1024x256_0_1
      (Host.reduce IntOp.andi
        (andi (cmpi .sge (wrapSamples idx) (broadcastInDim S8x1024x1 ![] bcast_S_S8x1024x1 (constantI S_ 32 0#32)))
              (cmpi .sle (wrapSamples idx) (broadcastInDim S8x1024x1 ![0, 1, 2] bcast_S1x1x1_S8x1024x1_0_1_2
                (broadcastInDim S1x1x1 ![2] bcast_S1_S1x1x1_2 (constantI S1 32 8191#32)))))
        (constantI S_ 1 1#1) reducesTo_S8x1024x1_S8x1024_d2 h_S_)) j = 1#1 :=
    reduce_andi_of_all _ _ _ _ _ rfl hX
  show Scalar.select _ (g j) _ = g j
  rw [hM]
  rfl

/-- The stretch of operations that looks up the first sample table, from any contents: its result buffer holds the
    lookup of the left vectors at the wrapped table. -/
theorem take_left_after (V : Valuation τ sig (Elt Ideal)) :
    StableHlo.after hostOps1_1 V (Proc.devRef .tc main_v25)
      = takeRows (V (Proc.devRef .tc main_v8_0)) (wrapSamples (V (Proc.devRef .tc main_arg4))) := by
  after_results_simp
  generalize V (Proc.devRef .tc main_v8_0) = X
  generalize V (Proc.devRef .tc main_arg4) = I
  rfl

/-- The same of the second sample table and the right vectors. -/
theorem take_right_after (V : Valuation τ sig (Elt Ideal)) :
    StableHlo.after hostOps1_2 V (Proc.devRef .tc main_v26)
      = takeRows (V (Proc.devRef .tc main_v8_1)) (wrapSamples (V (Proc.devRef .tc main_arg5))) := by
  after_results_simp
  generalize V (Proc.devRef .tc main_v8_1) = X
  generalize V (Proc.devRef .tc main_arg5) = I
  rfl

/-! ## The precondition read at the two sample tables -/

/-- The precondition is a conjunction of four facts; the last two say that every entry of the first and of the
    second sample table is at least -8192 and below 8192. -/
theorem samples_in_range (hpre : Cert.Pre_KernelIdeal (hPre_finite_inputs := Cert.Pre_finite_inputs.Gen.facts) m) (c : Dev nD) :
    InRange (m ((c.tc : Thread nD τ).loc main_arg4)) ∧ InRange (m ((c.tc : Thread nD τ).loc main_arg5)) := by
  -- the predicate's value has one index only
  haveI : Subsingleton Cert.Pre_finite_inputs.S_.Idx := ⟨fun a b => funext fun d => d.elim0⟩
  have e := congrFun (hpre c) (fun d => d.elim0)
  unfold Cert.Pre_finite_inputs.fn Cert.Pre_finite_inputs.fn_part1 at e
  dsimp only at e
  obtain ⟨⟨-, h4⟩, h5⟩ := IntOp.andi_eq_one.mp e |>.imp_left IntOp.andi_eq_one.mp
  have hm8192 : (4294959104#32 : BitVec 32).toInt = -8192 := by decide
  have h8192 : (8192#32 : BitVec 32).toInt = 8192 := by decide
  refine ⟨fun i => ?_, fun i => ?_⟩
  · obtain ⟨a, b⟩ := IntOp.andi_eq_one.mp (Host.reduce_andi_all _ _ _ _ _ h4 i)
    exact ⟨hm8192 ▸ IntOp.cmpi_sge.mp a, h8192 ▸ IntOp.cmpi_slt.mp b⟩
  · obtain ⟨a, b⟩ := IntOp.andi_eq_one.mp (Host.reduce_andi_all _ _ _ _ _ h5 i)
    exact ⟨hm8192 ▸ IntOp.cmpi_sge.mp a, h8192 ▸ IntOp.cmpi_slt.mp b⟩

/-! ## The sampled vectors -/

/-- The sampled left vectors: row table[g, n] of the first kernel's left vectors, for the first sample table. -/
theorem sampled_left (hpre : Cert.Pre_KernelIdeal (hPre_finite_inputs := Cert.Pre_finite_inputs.Gen.facts) m) (c : Dev nD) :
    W5 m ρ c (Proc.devRef .tc main_v25)
      = Host.gather gather_S8192x256_S8x1024x1_S8x1024x256_2_0_n_n_0_2_1256
          (W2 m ρ c (Proc.devRef .tc main_v8_0)) (wrapSamples (m ((c.tc : Thread nD τ).loc main_arg4))) := by
  have e5 : W5 m ρ c (Proc.devRef .tc main_v25) = W4 m ρ c (Proc.devRef .tc main_v25) := by stretch_keeps hostOps1_2
  have e4 : W4 m ρ c (Proc.devRef .tc main_v25)
      = takeRows (W3 m ρ c (Proc.devRef .tc main_v8_0)) (wrapSamples (W3 m ρ c (Proc.devRef .tc main_arg4))) :=
    take_left_after (W3 m ρ c)
  rw [e5, e4, W3_main_v8_0, W3_main_arg4]
  exact takeRows_eq _ _ (samples_in_range m hpre c).1

/-- The sampled right vectors: the same of the right vectors and the second sample table. -/
theorem sampled_right (hpre : Cert.Pre_KernelIdeal (hPre_finite_inputs := Cert.Pre_finite_inputs.Gen.facts) m) (c : Dev nD) :
    W5 m ρ c (Proc.devRef .tc main_v26)
      = Host.gather gather_S8192x256_S8x1024x1_S8x1024x256_2_0_n_n_0_2_1256
          (W2 m ρ c (Proc.devRef .tc main_v8_1)) (wrapSamples (m ((c.tc : Thread nD τ).loc main_arg5))) := by
  have e5 : W5 m ρ c (Proc.devRef .tc main_v26)
      = takeRows (W4 m ρ c (Proc.devRef .tc main_v8_1)) (wrapSamples (W4 m ρ c (Proc.devRef .tc main_arg5))) :=
    take_right_after (W4 m ρ c)
  rw [e5, W4_main_v8_1, W4_main_arg5]
  exact takeRows_eq _ _ (samples_in_range m hpre c).2

end Cert.KernelIdeal.SampleRows

end
-- ==== Proof.FlatLayout.lean ====
import Idealize.ShloMosaic.PureOps.Ideal
import Idealize.ShloMosaic.PureOps.Ideal.Laws
import Idealize.ShloMosaic.Lib.ValueIdx
import Idealize.ShloMosaic.Lib.Pipeline.Value

/-!
# Flattening in two halves, and the logistic function written out

Layout facts about arrays as functions of a multi-index, and one identity of the logistic function.

* The number one as a 32-bit float pattern, and `1 / (1 + exp (-x))` as the logistic function.
* A pointwise map commutes with a reshape and with a two-piece concatenation, because both only move indices.
* An array of shape `[8, 2, 1024, 1024]` flattened to `16777216` entries is the same as two arrays of shape
  `[8, 1024, 1024]`, each flattened to `[8, 1048576]`, laid side by side along the second axis to
  `[8, 2097152]` and flattened, when the first array's two slices along its second axis are the two others.
  A flat position `q` is `((g * 2 + h) * 1024 + p) * 1024 + n` on one side and
  `g * 2097152 + (h * 1048576 + p * 1024 + n)` on the other: the same number.
-/

namespace Cert.Layout

open Idealize.ShloMosaic Idealize.ShloMosaic.ValueIdx

variable {α β : Type}

/-! ## The logistic function -/

/-- The pattern `0x3F800000` has a clear sign bit, exponent field `127` (the bias) and fraction field `0`, so it
    denotes `2 ^ 23 * 2 ^ (127 - 127 - 23) = 1`. -/
theorem one_word : Ideal.ofBits .f32 0x3F800000#32 = (1 : EReal) := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  -- the exponent field is neither all ones nor zero, and the sign is clear: a normal positive number
  rw [if_neg (by norm_num), if_neg (by norm_num), if_neg (by decide)]
  refine (congrArg Real.toEReal ?_).trans EReal.coe_one
  norm_num

/-- `1 / (1 + exp (-x))`, with each `1` spelt as its float pattern, is the logistic function of `x`:
    once the pattern is read as `1` this is the function's definition. -/
theorem logistic_expanded (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x)))
      = Ideal.logistic x := by
  rw [one_word]
  rfl

/-! ## A pointwise map commutes with re-indexing -/

/-- A reshape reads its operand at the index with the same row-major position; applying `f` to every entry
    before or after makes no difference. -/
theorem map_shapeCast (f : α → β) {s t : Shape} (x : s.Idx → α) (h : s.ShapeCasts t) :
    shapeCast t (fun i => f (x i)) h = fun j => f (shapeCast t x h j) := rfl

/-- A concatenation of two pieces reads, at each index, one of the pieces at an index that depends only on the
    shapes; applying `f` to every entry of both pieces before, or to the result after, makes no difference. -/
theorem map_concat_pair (f : α → β) {t s₁ s₂ : Shape} (a : Fin t.rank) (x₁ : s₁.Idx → α) (x₂ : s₂.Idx → α)
    (h : Shape.Concatenates [s₁, s₂] t a) :
    concatenate t a [⟨s₁, fun i => f (x₁ i)⟩, ⟨s₂, fun i => f (x₂ i)⟩] h
      = fun j => f (concatenate t a [⟨s₁, x₁⟩, ⟨s₂, x₂⟩] h j) := by
  funext j
  obtain ⟨hr₁, hs₁⟩ := h.2.1 s₁ (by simp)
  obtain ⟨hr₂, hs₂⟩ := h.2.1 s₂ (by simp)
  -- along the joined axis the two pieces' extents add up to the result's
  have hsum : s₁.size (a.cast hr₁.symm) + s₂.size (a.cast hr₂.symm) = t.size a := by
    have e := h.2.2
    simp only [List.map, dif_pos hr₁, dif_pos hr₂, List.sum_cons, List.sum_nil] at e
    omega
  have hja : (j a).val < t.size a := (j a).isLt
  by_cases hlt : (j a).val < s₁.size (a.cast hr₁.symm)
  · -- the coordinate falls in the first piece: both sides read it at j's own coordinates
    have hb : ∀ b : Fin s₁.rank, (j (b.cast hr₁)).val < s₁.size b := fun b => by
      by_cases hba : b.cast hr₁ = a
      · have hv : (b.cast hr₁).val = a.val := congrArg Fin.val hba
        have eb : b = a.cast hr₁.symm := Fin.ext hv
        rw [eb]; exact hlt
      · have e : s₁.size b = t.size (b.cast hr₁) := hs₁ (b.cast hr₁) hba
        have hj := (j (b.cast hr₁)).isLt
        omega
    rw [concatenate_pair_apply_left a (fun i => f (x₁ i)) (fun i => f (x₂ i)) h j hr₁
          (fun b => ⟨(j (b.cast hr₁)).val, hb b⟩) (fun _ => rfl),
        concatenate_pair_apply_left a x₁ x₂ h j hr₁ (fun b => ⟨(j (b.cast hr₁)).val, hb b⟩) (fun _ => rfl)]
  · -- the coordinate falls in the second piece: both sides read it with the first extent taken off that axis
    have hb : ∀ b : Fin s₂.rank, b.cast hr₂ ≠ a → (j (b.cast hr₂)).val < s₂.size b := fun b hba => by
      have e : s₂.size b = t.size (b.cast hr₂) := hs₂ (b.cast hr₂) hba
      have hj := (j (b.cast hr₂)).isLt
      omega
    have ha : ∀ b : Fin s₂.rank, b.cast hr₂ = a → (j a).val - s₁.size (a.cast hr₁.symm) < s₂.size b := fun b hba => by
      have hv : (b.cast hr₂).val = a.val := congrArg Fin.val hba
      have eb : b = a.cast hr₂.symm := Fin.ext hv
      rw [eb]; omega
    let i : s₂.Idx := fun b =>
      if hba : b.cast hr₂ = a then ⟨(j a).val - s₁.size (a.cast hr₁.symm), ha b hba⟩
      else ⟨(j (b.cast hr₂)).val, hb b hba⟩
    have hi : ∀ b : Fin s₂.rank, b.cast hr₂ ≠ a → (i b).val = (j (b.cast hr₂)).val := fun b hba => by
      simp only [i, dif_neg hba]
    have hia : (i (a.cast hr₂.symm)).val + s₁.size (a.cast hr₁.symm) = (j a).val := by
      have e : (a.cast hr₂.symm).cast hr₂ = a := rfl
      simp only [i, dif_pos e]
      omega
    rw [concatenate_pair_apply_right a (fun i => f (x₁ i)) (fun i => f (x₂ i)) h j hr₁ hr₂ i hi hia,
        concatenate_pair_apply_right a x₁ x₂ h j hr₁ hr₂ i hi hia]

/-! ## Flattening in two halves -/

/-- Write a flat position `q < 16777216` as `q = g * 2097152 + r` with `r < 2097152`. On the right the joined
    array is read at `(g, r)`: for `r < 1048576` that is the first piece at `(g, r)`, which is `A` at
    `(g, r / 1024, r % 1024)`; otherwise the second piece at `(g, r - 1048576)`, which is `B` at
    `(g, (r - 1048576) / 1024, r % 1024)`. On the left `q = ((g * 2 + h) * 1024 + p) * 1024 + n` with the same
    `g`, `p`, `n` and `h = 0` resp. `h = 1`, so `NK` is read at `(g, h, p, n)`, where it agrees with
    `A` resp. `B`. -/
theorem flat_halves (NK : (⟨4, ![8, 2, 1024, 1024]⟩ : Shape).Idx → α) (A B : (⟨3, ![8, 1024, 1024]⟩ : Shape).Idx → α)
    (hK : (⟨4, ![8, 2, 1024, 1024]⟩ : Shape).ShapeCasts ⟨1, ![16777216]⟩)
    (h3 : (⟨3, ![8, 1024, 1024]⟩ : Shape).ShapeCasts ⟨2, ![8, 1048576]⟩)
    (hc : Shape.Concatenates [(⟨2, ![8, 1048576]⟩ : Shape), ⟨2, ![8, 1048576]⟩] ⟨2, ![8, 2097152]⟩ 1)
    (h2 : (⟨2, ![8, 2097152]⟩ : Shape).ShapeCasts ⟨1, ![16777216]⟩)
    (e0 : ∀ (g : Fin 8) (p n : Fin 1024), NK (ix4 g 0 p n) = A (ix3 g p n))
    (e1 : ∀ (g : Fin 8) (p n : Fin 1024), NK (ix4 g 1 p n) = B (ix3 g p n)) :
    shapeCast ⟨1, ![16777216]⟩ NK hK
      = shapeCast ⟨1, ![16777216]⟩
          (concatenate ⟨2, ![8, 2097152]⟩ 1
            [⟨⟨2, ![8, 1048576]⟩, shapeCast ⟨2, ![8, 1048576]⟩ A h3⟩,
             ⟨⟨2, ![8, 1048576]⟩, shapeCast ⟨2, ![8, 1048576]⟩ B h3⟩] hc) h2 := by
  funext j
  have hj : (j 0).val < 16777216 := (j 0).isLt
  -- the flat position splits as  q = g * 2097152 + r  with  r < 2097152
  have hg : (j 0).val / 2097152 < 8 := by omega
  have hr : (j 0).val % 2097152 < 2097152 := by omega
  have hn : (j 0).val % 1024 < 1024 := by omega
  -- the joined array is read at (g, r)
  rw [shapeCast_apply _ h2 j (ix2 (⟨(j 0).val / 2097152, hg⟩ : Fin 8) (⟨(j 0).val % 2097152, hr⟩ : Fin 2097152))
    (by rw [Shape.rowMajor_val_two, Shape.rowMajor_val_one]
        show (j 0).val / 2097152 * 2097152 + (j 0).val % 2097152 = (j 0).val
        omega)]
  by_cases hh : (j 0).val % 2097152 < 1048576
  · -- first half: r = p * 1024 + n
    have hp : (j 0).val % 2097152 / 1024 < 1024 := by omega
    rw [shapeCast_apply NK hK j (ix4 (⟨(j 0).val / 2097152, hg⟩ : Fin 8) (0 : Fin 2) (⟨(j 0).val % 2097152 / 1024, hp⟩ : Fin 1024) (⟨(j 0).val % 1024, hn⟩ : Fin 1024))
      (by rw [Shape.rowMajor_val_four, Shape.rowMajor_val_one]
          show (((j 0).val / 2097152 * 2 + 0) * 1024 + (j 0).val % 2097152 / 1024) * 1024 + (j 0).val % 1024 = (j 0).val
          omega)]
    rw [e0]
    rw [concatenate_pair_apply_left 1 _ _ hc (ix2 (⟨(j 0).val / 2097152, hg⟩ : Fin 8) (⟨(j 0).val % 2097152, hr⟩ : Fin 2097152)) rfl (ix2 (⟨(j 0).val / 2097152, hg⟩ : Fin 8) (⟨(j 0).val % 2097152, hh⟩ : Fin 1048576))
      (fun b => match b with | ⟨0, _⟩ => rfl | ⟨1, _⟩ => rfl)]
    rw [shapeCast_apply A h3 _ (ix3 (⟨(j 0).val / 2097152, hg⟩ : Fin 8) (⟨(j 0).val % 2097152 / 1024, hp⟩ : Fin 1024) (⟨(j 0).val % 1024, hn⟩ : Fin 1024))
      (by rw [Shape.rowMajor_val_three, Shape.rowMajor_val_two]
          show ((j 0).val / 2097152 * 1024 + (j 0).val % 2097152 / 1024) * 1024 + (j 0).val % 1024 = (j 0).val / 2097152 * 1048576 + (j 0).val % 2097152
          omega)]
  · -- second half: r = 1048576 + p * 1024 + n
    have hr' : (j 0).val % 2097152 - 1048576 < 1048576 := by omega
    have hp : ((j 0).val % 2097152 - 1048576) / 1024 < 1024 := by omega
    rw [shapeCast_apply NK hK j (ix4 (⟨(j 0).val / 2097152, hg⟩ : Fin 8) (1 : Fin 2) (⟨((j 0).val % 2097152 - 1048576) / 1024, hp⟩ : Fin 1024) (⟨(j 0).val % 1024, hn⟩ : Fin 1024))
      (by rw [Shape.rowMajor_val_four, Shape.rowMajor_val_one]
          show (((j 0).val / 2097152 * 2 + 1) * 1024 + ((j 0).val % 2097152 - 1048576) / 1024) * 1024 + (j 0).val % 1024 = (j 0).val
          omega)]
    rw [e1]
    rw [concatenate_pair_apply_right 1 _ _ hc (ix2 (⟨(j 0).val / 2097152, hg⟩ : Fin 8) (⟨(j 0).val % 2097152, hr⟩ : Fin 2097152)) rfl rfl (ix2 (⟨(j 0).val / 2097152, hg⟩ : Fin 8) (⟨(j 0).val % 2097152 - 1048576, hr'⟩ : Fin 1048576))
      (fun b hb => by
        -- off the joined axis there is only axis 0
        have hb0 : b = ⟨0, by decide⟩ := by
          apply Fin.ext
          have h1 : b.val < 2 := b.isLt
          have h2 : b.val ≠ 1 := fun e => hb (Fin.ext e)
          show b.val = 0
          omega
        subst hb0
        rfl)
      (by show (j 0).val % 2097152 - 1048576 + 1048576 = (j 0).val % 2097152
          omega)]
    rw [shapeCast_apply B h3 _ (ix3 (⟨(j 0).val / 2097152, hg⟩ : Fin 8) (⟨((j 0).val % 2097152 - 1048576) / 1024, hp⟩ : Fin 1024) (⟨(j 0).val % 1024, hn⟩ : Fin 1024))
      (by rw [Shape.rowMajor_val_three, Shape.rowMajor_val_two]
          show ((j 0).val / 2097152 * 1024 + ((j 0).val % 2097152 - 1048576) / 1024) * 1024 + (j 0).val % 1024 = (j 0).val / 2097152 * 1048576 + ((j 0).val % 2097152 - 1048576)
          omega)]

end Cert.Layout
-- ==== Proof.ReferenceStages.lean ====
/-
  The reference's stages, read at explicit coordinates as the scores of the specification.

  The reference sums the two feature vectors of each of the 16384 nodes, regroups the nodes in pairs and takes the
  first of a pair as its left vector and the second as its right vector. Entry (r, k) of the left vectors is
  therefore the sum over the two features j of the embedding at (2r, j, k), and these two embeddings are the entries
  (r, k) and (r, 256 + k) of the embeddings re-laid as 8192 rows of 1024; the right vectors read (2r + 1, j, k),
  the entries (r, 512 + k) and (r, 768 + k). The sum starts from the zero word, which adds nothing. The positive
  score, the two products per relation and the probabilities follow operation by operation.
-/
import proofs.«404157_j18021682774350_2_alg».proof.Proof.RefRead
import proofs.«404157_j18021682774350_2_alg».proof.Proof.Spec
import proofs.«404157_j18021682774350_2_alg».proof.Proof.FlatLayout
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ReadP
open Idealize.ShloMosaic Idealize.ShloMosaic.ValueIdx

variable (x0 : (⟨S16384x2x256, .f32⟩ : BufTy).Contents (Elt Ideal)) (x1 : (⟨S8x256, .f32⟩ : BufTy).Contents (Elt Ideal))
variable (x2 x3 : (⟨S8192, .i32⟩ : BufTy).Contents (Elt Ideal)) (x4 x5 : (⟨S8x1024, .i32⟩ : BufTy).Contents (Elt Ideal))
variable (hrows : S16384x2x256.ShapeCasts ⟨2, ![8192, 1024]⟩)

/-- The zero word is the number zero. -/
theorem zero_word : FloatOps.ofBits (F := Ideal) .f32 0x00000000#32 = (0 : EReal) := Ideal.ofBits_zero_f32

/-- Feature j of node q at coordinate k, as an index of the embeddings. -/
abbrev feat (q : Fin 16384) (j : Fin 2) (k : Fin 256) : S16384x2x256.Idx := ix3 q j k

/-- The re-laid embeddings at (r, col) are feature j of node q at coordinate k when the two positions are the same
    place in row-major order. -/
theorem rows_at (r : Fin 8192) (col : Fin 1024) (q : Fin 16384) (j : Fin 2) (k : Fin 256)
    (h : (q.val * 2 + j.val) * 256 + k.val = r.val * 1024 + col.val) :
    shapeCast ⟨2, ![8192, 1024]⟩ x0 hrows (ix2 r col) = x0 (feat q j k) := by
  refine shapeCast_apply x0 hrows (ix2 r col) (feat q j k) ?_
  rewrite [Shape.rowMajor_val_three, Shape.rowMajor_val_two]
  exact h

/-- The reference's left vectors at (r, k). -/
theorem lhs_stage (r : Fin 8192) (k : Fin 256) :
    val_main_v3 (F := Ideal) x0 (ix2 r k) = Cert.Scores.lhsAt (shapeCast ⟨2, ![8192, 1024]⟩ x0 hrows) r k := by
  rw [val_main_v3_apply, val_main_v2_apply, val_main_v1_apply, val_main_v0_apply, Fin.sum_univ_two]
  unfold Cert.Scores.lhsAt
  rw [rows_at x0 hrows r ⟨k.val, by omega⟩ ⟨2 * r.val, by omega⟩ 0 k (by simp <;> omega),
    rows_at x0 hrows r ⟨256 + k.val, by omega⟩ ⟨2 * r.val, by omega⟩ 1 k (by simp <;> omega)]
  have hz : (val_main_cst (F := Ideal)) (Shape.Idx.first h_S_) = 0 := zero_word
  rw [hz, zero_add]
  have e (j : Fin 2) : idx_main_v0 (idx_main_v1 (idx_main_v2 (idx_main_v3 (ix2 r k)))) j
      = feat ⟨2 * r.val, by omega⟩ j k := funext fun a => Fin.ext (by
    have := r.isLt; have := k.isLt
    match a with
    | ⟨0, _⟩ => show (((r.val * 256 + k.val) / 256 * 2 + 0) * 256 + (r.val * 256 + k.val) % 256) / 256 = 2 * r.val; omega
    | ⟨1, _⟩ => rfl
    | ⟨2, _⟩ => show (((r.val * 256 + k.val) / 256 * 2 + 0) * 256 + (r.val * 256 + k.val) % 256) % 256 = k.val; omega)
  rw [e 0, e 1]

/-- The reference's right vectors at (r, k). -/
theorem rhs_stage (r : Fin 8192) (k : Fin 256) :
    val_main_v5 (F := Ideal) x0 (ix2 r k) = Cert.Scores.rhsAt (shapeCast ⟨2, ![8192, 1024]⟩ x0 hrows) r k := by
  rw [val_main_v5_apply, val_main_v4_apply, val_main_v1_apply, val_main_v0_apply, Fin.sum_univ_two]
  unfold Cert.Scores.rhsAt
  rw [rows_at x0 hrows r ⟨512 + k.val, by omega⟩ ⟨2 * r.val + 1, by omega⟩ 0 k (by simp <;> omega),
    rows_at x0 hrows r ⟨768 + k.val, by omega⟩ ⟨2 * r.val + 1, by omega⟩ 1 k (by simp <;> omega)]
  have hz : (val_main_cst (F := Ideal)) (Shape.Idx.first h_S_) = 0 := zero_word
  rw [hz, zero_add]
  have e (j : Fin 2) : idx_main_v0 (idx_main_v1 (idx_main_v4 (idx_main_v5 (ix2 r k)))) j
      = feat ⟨2 * r.val + 1, by omega⟩ j k := funext fun a => Fin.ext (by
    have := r.isLt; have := k.isLt
    match a with
    | ⟨0, _⟩ => show (((r.val * 256 + k.val) / 256 * 2 + (1 + 0)) * 256 + (r.val * 256 + k.val) % 256) / 256 = 2 * r.val + 1; omega
    | ⟨1, _⟩ => rfl
    | ⟨2, _⟩ => show (((r.val * 256 + k.val) / 256 * 2 + (1 + 0)) * 256 + (r.val * 256 + k.val) % 256) % 256 = k.val; omega)
  rw [e 0, e 1]

/-- The reference's positive score of pair r. -/
theorem pos_stage (r : Fin 8192) :
    val_main_v15 (F := Ideal) x0 x1 x2 (ix1 r)
      = Cert.Scores.posAt (shapeCast ⟨2, ![8192, 1024]⟩ x0 hrows) (val_main_v12 (F := Ideal) x1 x2) r := by
  rw [val_main_v15_apply]
  unfold Cert.Scores.posAt
  have hz : (val_main_cst_1 (F := Ideal)) (Shape.Idx.first h_S_) = 0 := zero_word
  rw [hz, zero_add]
  refine Finset.sum_congr rfl fun k _ => ?_
  have ei : idx_main_v15 (ix1 r) k = ix2 r k := funext fun a => Fin.ext (by match a with | ⟨0, _⟩ => rfl | ⟨1, _⟩ => rfl)
  rw [ei, val_main_v14_apply, val_main_v13_apply, lhs_stage x0 hrows r k, rhs_stage x0 hrows r k]
  rfl

/-- The reference's product of the grouped right vectors with the sampled left vectors. -/
theorem neg_left_stage (SL PR : (⟨3, ![8, 1024, 256]⟩ : Shape).Idx → EReal) (g : Fin 8) (p n : Fin 1024) :
    val_main_v46 (F := Ideal) x0 x3 x4 (ix3 g p n)
      = Cert.Scores.negAt SL (val_main_v31 (F := Ideal) x0 x3) (val_main_v38 (F := Ideal) x0 x4) PR g 0 p n := by
  rw [val_main_v46_apply]
  unfold Cert.Scores.negAt
  have h0 : ((0 : Fin 2).val = 0) := rfl
  rw [if_pos h0]
  refine Finset.sum_congr rfl fun k _ => ?_
  have el : lidx_main_v46 (ix3 g p n) k = ix3 g p k := funext fun a => Fin.ext (by match a with | ⟨0, _⟩ => rfl | ⟨1, _⟩ => rfl | ⟨2, _⟩ => rfl)
  have er : ridx_main_v46 (ix3 g p n) k = ix3 g n k := funext fun a => Fin.ext (by match a with | ⟨0, _⟩ => rfl | ⟨1, _⟩ => rfl | ⟨2, _⟩ => rfl)
  rw [el, er]

/-- The reference's product of the grouped left vectors with the sampled right vectors. -/
theorem neg_right_stage (SR PL : (⟨3, ![8, 1024, 256]⟩ : Shape).Idx → EReal) (g : Fin 8) (p n : Fin 1024) :
    val_main_v48 (F := Ideal) x0 x3 x5 (ix3 g p n)
      = Cert.Scores.negAt (val_main_v23 (F := Ideal) x0 x3) SR PL (val_main_v45 (F := Ideal) x0 x5) g 1 p n := by
  rw [val_main_v48_apply]
  unfold Cert.Scores.negAt
  have h1 : ¬ ((1 : Fin 2).val = 0) := by decide
  rw [if_neg h1]
  refine Finset.sum_congr rfl fun k _ => ?_
  have el : lidx_main_v48 (ix3 g p n) k = ix3 g p k := funext fun a => Fin.ext (by match a with | ⟨0, _⟩ => rfl | ⟨1, _⟩ => rfl | ⟨2, _⟩ => rfl)
  have er : ridx_main_v48 (ix3 g p n) k = ix3 g n k := funext fun a => Fin.ext (by match a with | ⟨0, _⟩ => rfl | ⟨1, _⟩ => rfl | ⟨2, _⟩ => rfl)
  rw [el, er]

/-- The reference's flattened negative scores are the flattening of any [8, 2, 1024, 1024] array whose two halves are
    its two products. -/
theorem negs_flat (NK : (⟨4, ![8, 2, 1024, 1024]⟩ : Shape).Idx → EReal)
    (hK : (⟨4, ![8, 2, 1024, 1024]⟩ : Shape).ShapeCasts ⟨1, ![16777216]⟩)
    (e0 : ∀ (g : Fin 8) (p n : Fin 1024), NK (ix4 g 0 p n) = val_main_v46 (F := Ideal) x0 x3 x4 (ix3 g p n))
    (e1 : ∀ (g : Fin 8) (p n : Fin 1024), NK (ix4 g 1 p n) = val_main_v48 (F := Ideal) x0 x3 x5 (ix3 g p n)) :
    shapeCast ⟨1, ![16777216]⟩ NK hK = val_main_v51 (F := Ideal) x0 x3 x4 x5 := by
  unfold val_main_v51 val_main_v50 val_main_v47 val_main_v49
  exact Cert.Layout.flat_halves NK _ _ hK _ _ _ e0 e1

/-- The reference's probabilities are the logistic function of its scores, entry by entry. -/
theorem probs_stage :
    val_main_v58 (F := Ideal) x0 x1 x2 x3 x4 x5 = fun i => Ideal.logistic (val_main_v52 (F := Ideal) x0 x1 x2 x3 x4 x5 i) := by
  funext i
  rw [val_main_v58_apply, val_main_v57_apply, val_main_cst_11_apply, val_main_v56_apply, val_main_v55_apply,
    val_main_cst_10_apply, val_main_v54_apply, val_main_v53_apply]
  exact Cert.Layout.logistic_expanded _

end Cert.ReferenceIdeal.Stages

end
-- ==== Proof.Bridge.lean ====
/-
  The kernel's two results are the reference's two results, as functions of the arguments.

  Under the precondition the six arrays the two regions exchange are the reference's own stages: the embeddings re-laid
  and the gathered translations enter the first region, whose node vectors and positive scores are the reference's;
  the rows grouped by relation and the sampled rows (read by an in-range index, so the fill value of the sampling is
  never used) enter the second region, whose two products per relation are the reference's two batched products.
  The first result is then the reference's scores piece by piece; the second is the logistic function of the first,
  entry by entry, which is how the reference computes it.
-/
import proofs.«404157_j18021682774350_2_alg».proof.Proof.Boundaries
import proofs.«404157_j18021682774350_2_alg».proof.Proof.NodePairs
import proofs.«404157_j18021682774350_2_alg».proof.Proof.RelationProducts
import proofs.«404157_j18021682774350_2_alg».proof.Proof.SampleRows
import proofs.«404157_j18021682774350_2_alg».proof.Proof.FlatLayout
import proofs.«404157_j18021682774350_2_alg».proof.Proof.ReferenceStages

set_option maxRecDepth 16384

noncomputable section

namespace Cert.Bridge

open Cert.KernelIdeal Cert.KernelIdeal.Gen Cert.KernelIdeal.Boundaries
open Cert.ReferenceIdeal.ReadP Cert.ReferenceIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg)

/-- The six arguments on core c. -/
abbrev emb (c : Dev nD) := m ((c.tc : Thread nD τ).loc main_arg0)
abbrev trans (c : Dev nD) := m ((c.tc : Thread nD τ).loc main_arg1)
abbrev rels (c : Dev nD) := m ((c.tc : Thread nD τ).loc main_arg2)
abbrev order (c : Dev nD) := m ((c.tc : Thread nD τ).loc main_arg3)
abbrev negL (c : Dev nD) := m ((c.tc : Thread nD τ).loc main_arg4)
abbrev negR (c : Dev nD) := m ((c.tc : Thread nD τ).loc main_arg5)

/-! ## The first region -/

/-- The left node vectors are the reference's. -/
theorem lhs_value (c : Dev nD) : (dat0 (V1 m ρ) c).arrAt 2 cfg0.N = val_main_v3 (F := Ideal) (emb m c) := by
  funext i
  obtain ⟨r, k, rfl⟩ : ∃ (r : Fin 8192) (k : Fin 256), i = ix2 r k := ⟨i 0, i 1, eq_ix2 i⟩
  rw [Cert.KernelIdeal.NodePairs.lhs_arr, rows_entry]
  exact (lhs_stage (emb m c) shapeCasts_S16384x2x256_S8192x1024 r k).symm

/-- The right node vectors are the reference's. -/
theorem rhs_value (c : Dev nD) : (dat0 (V1 m ρ) c).arrAt 3 cfg0.N = val_main_v5 (F := Ideal) (emb m c) := by
  funext i
  obtain ⟨r, k, rfl⟩ : ∃ (r : Fin 8192) (k : Fin 256), i = ix2 r k := ⟨i 0, i 1, eq_ix2 i⟩
  rw [Cert.KernelIdeal.NodePairs.rhs_arr, rows_entry]
  exact (rhs_stage (emb m c) shapeCasts_S16384x2x256_S8192x1024 r k).symm

/-- The gathered translations are the reference's. -/
theorem shift_value (c : Dev nD) : V1 m ρ c main_v7 = val_main_v12 (F := Ideal) (trans m c) (rels m c) :=
  (shift_entry m ρ c).trans rfl

/-- The positive scores are the reference's. -/
theorem pos_value (c : Dev nD) :
    (dat0 (V1 m ρ) c).arrAt 4 cfg0.N = val_main_v15 (F := Ideal) (emb m c) (trans m c) (rels m c) := by
  funext i
  obtain ⟨r, rfl⟩ : ∃ r : Fin 8192, i = ix1 r := ⟨i 0, eq_ix1 i⟩
  rw [Cert.KernelIdeal.NodePairs.pos_arr, rows_entry, shift_value]
  exact (pos_stage (emb m c) (trans m c) (rels m c) shapeCasts_S16384x2x256_S8192x1024 r).symm

/-- The positive probabilities are the logistic function of the positive scores. -/
theorem sig_value (c : Dev nD) :
    (dat0 (V1 m ρ) c).arrAt 5 cfg0.N = fun i => Ideal.logistic ((dat0 (V1 m ρ) c).arrAt 4 cfg0.N i) := by
  funext i
  obtain ⟨r, rfl⟩ : ∃ r : Fin 8192, i = ix1 r := ⟨i 0, eq_ix1 i⟩
  rw [Cert.KernelIdeal.NodePairs.sig_arr, Cert.KernelIdeal.NodePairs.pos_arr]

/-! ## What the second region is entered with -/

/-- The grouped left vectors are the reference's. -/
theorem grouped_left_value (c : Dev nD) : V5 m ρ c main_v16 = val_main_v23 (F := Ideal) (emb m c) (order m c) := by
  show W5 m ρ c (Proc.devRef .tc main_v16) = _
  rw [Cert.KernelIdeal.SampleRows.grouped_left, lhs_left0, lhs_value]
  rfl

/-- The grouped right vectors are the reference's. -/
theorem grouped_right_value (c : Dev nD) : V5 m ρ c main_v24 = val_main_v31 (F := Ideal) (emb m c) (order m c) := by
  show W5 m ρ c (Proc.devRef .tc main_v24) = _
  rw [Cert.KernelIdeal.SampleRows.grouped_right, rhs_left0, rhs_value]
  rfl

/-- The sampled left vectors are the reference's: the sample indices are in range, so the rows are read and the
    fill value is not. -/
theorem sampled_left_value (hpre : Cert.Pre_KernelIdeal (hPre_finite_inputs := Cert.Pre_finite_inputs.Gen.facts) m) (c : Dev nD) : V5 m ρ c main_v25 = val_main_v38 (F := Ideal) (emb m c) (negL m c) := by
  show W5 m ρ c (Proc.devRef .tc main_v25) = _
  rw [Cert.KernelIdeal.SampleRows.sampled_left m ρ hpre, lhs_left0, lhs_value]
  rfl

/-- The sampled right vectors are the reference's. -/
theorem sampled_right_value (hpre : Cert.Pre_KernelIdeal (hPre_finite_inputs := Cert.Pre_finite_inputs.Gen.facts) m) (c : Dev nD) : V5 m ρ c main_v26 = val_main_v45 (F := Ideal) (emb m c) (negR m c) := by
  show W5 m ρ c (Proc.devRef .tc main_v26) = _
  rw [Cert.KernelIdeal.SampleRows.sampled_right m ρ hpre, rhs_left0, rhs_value]
  rfl

/-! ## The second region -/

/-- Half 0 of the negative scores is the reference's first batched product. -/
theorem neg_left_value (hpre : Cert.Pre_KernelIdeal (hPre_finite_inputs := Cert.Pre_finite_inputs.Gen.facts) m) (c : Dev nD) (g : Fin 8) (p n : Fin 1024) :
    (dat1 (V5 m ρ) c).arrAt 4 cfg1.N (ix4 g 0 p n)
      = val_main_v46 (F := Ideal) (emb m c) (order m c) (negL m c) (ix3 g p n) := by
  rw [Cert.KernelIdeal.RelationProducts.neg_arr, grouped_right_value, sampled_left_value m ρ hpre]
  exact (neg_left_stage (emb m c) (order m c) (negL m c) _ _ g p n).symm

/-- Half 1 of the negative scores is the reference's second batched product. -/
theorem neg_right_value (hpre : Cert.Pre_KernelIdeal (hPre_finite_inputs := Cert.Pre_finite_inputs.Gen.facts) m) (c : Dev nD) (g : Fin 8) (p n : Fin 1024) :
    (dat1 (V5 m ρ) c).arrAt 4 cfg1.N (ix4 g 1 p n)
      = val_main_v48 (F := Ideal) (emb m c) (order m c) (negR m c) (ix3 g p n) := by
  rw [Cert.KernelIdeal.RelationProducts.neg_arr, grouped_left_value, sampled_right_value m ρ hpre]
  exact (neg_right_stage (emb m c) (order m c) (negR m c) _ _ g p n).symm

/-- The negative probabilities are the logistic function of the negative scores. -/
theorem negsig_value (c : Dev nD) :
    (dat1 (V5 m ρ) c).arrAt 5 cfg1.N = fun i => Ideal.logistic ((dat1 (V5 m ρ) c).arrAt 4 cfg1.N i) := by
  funext i
  obtain ⟨g, h, p, n, rfl⟩ : ∃ (g : Fin 8) (h : Fin 2) (p n : Fin 1024), i = ix4 g h p n := ⟨i 0, i 1, i 2, i 3, eq_ix4 i⟩
  rw [Cert.KernelIdeal.RelationProducts.negsig_arr, Cert.KernelIdeal.RelationProducts.neg_arr]

/-! ## The two results -/

/-- The first result is the reference's scores. -/
theorem logits_value (hpre : Cert.Pre_KernelIdeal (hPre_finite_inputs := Cert.Pre_finite_inputs.Gen.facts) m) (c : Dev nD) :
    W7 m ρ c (Proc.devRef .tc main_v29)
      = val_main_v52 (F := Ideal) (emb m c) (trans m c) (rels m c) (order m c) (negL m c) (negR m c) := by
  rw [logits_joined, pos_carried, negs_left1, pos_value,
    negs_flat (emb m c) (order m c) (negL m c) (negR m c) ((dat1 (V5 m ρ) c).arrAt 4 cfg1.N) shapeCasts_S8x2x1024x1024_S16777216
      (neg_left_value m ρ hpre c) (neg_right_value m ρ hpre c)]
  rfl

/-- The second result is the reference's probabilities. -/
theorem probs_value (hpre : Cert.Pre_KernelIdeal (hPre_finite_inputs := Cert.Pre_finite_inputs.Gen.facts) m) (c : Dev nD) :
    W7 m ρ c (Proc.devRef .tc main_v31)
      = val_main_v58 (F := Ideal) (emb m c) (trans m c) (rels m c) (order m c) (negL m c) (negR m c) := by
  rw [probs_stage, ← logits_value m ρ hpre c, logits_joined, probs_joined, sig_carried, negsig_left1, pos_carried,
    negs_left1, sig_value, negsig_value]
  exact (congrArg
      (fun z : S16777216.Idx → EReal => concatenate S16785408 0
        [⟨S8192, fun i => Ideal.logistic ((dat0 (V1 m ρ) c).arrAt 4 cfg0.N i)⟩, ⟨S16777216, z⟩]
        concatenates_S8192_S16777216_S16785408_d0)
      (Cert.Layout.map_shapeCast Ideal.logistic (s := S8x2x1024x1024) (t := S16777216)
        ((dat1 (V5 m ρ) c).arrAt 4 cfg1.N) shapeCasts_S8x2x1024x1024_S16777216)).trans
    (Cert.Layout.map_concat_pair Ideal.logistic (t := S16785408) (s₁ := S8192) (s₂ := S16777216) 0
      ((dat0 (V1 m ρ) c).arrAt 4 cfg0.N)
      (shapeCast S16777216 ((dat1 (V5 m ρ) c).arrAt 4 cfg1.N) shapeCasts_S8x2x1024x1024_S16777216)
      concatenates_S8192_S16777216_S16785408_d0)

end Cert.Bridge

end
-- ==== Proof.lean ====
/-
  A translation-model scorer: the kernel and its reference compute the same scores and the same probabilities.

  From 16384 node embeddings (two feature vectors of 256 numbers each, summed per node) taken in 8192 (left, right)
  pairs, a table of 8 translations and a relation per pair, the positive score of a pair is the inner product of its
  left vector with its right vector shifted by its relation's translation. The pairs are grouped by relation
  (`order`), and for each relation 1024 left vectors and 1024 right vectors are sampled by index; the negative scores
  of a relation are the inner products of its grouped right vectors with its sampled left vectors and of its grouped
  left vectors with its sampled right vectors. The first result lists the positive scores and then, relation by
  relation, the two blocks of negative scores; the second result is the logistic function of the first.

  The kernel computes this in two regions with host operations around them; the reference in host operations alone.
  On the extended reals the two agree operation by operation: a sum that starts from the zero word, a lane sum against
  a host sum, a block product per relation against one batched product, the logistic function against its expansion
  1 / (1 + e^(-x)), and two ways of laying the negative scores out flat. The one place where the programs differ is
  the sampling: the kernel fills a row whose index is out of range with a fixed value where the reference reads the
  nearest row. The precondition asks the sample indices to be in range (a negative index counting from the end),
  and there the fill value is never used.

  The three runs: the kernel's two frames are the generated ones; the reference's is its run read in two stretches (ReferenceRun.lean, over the generated operation list); the
  idealized kernel's run with its two results named is the launch theorem once more (KernelRun.lean).
-/
import proofs.«404157_j18021682774350_2_alg».proof.Defs
import proofs.«404157_j18021682774350_2_alg».proof.Proof.Gen.Kernel
import proofs.«404157_j18021682774350_2_alg».proof.Proof.Gen.Kernel.Skeleton
import proofs.«404157_j18021682774350_2_alg».proof.Proof.Gen.Kernel.Launch
import proofs.«404157_j18021682774350_2_alg».proof.Proof.Gen.Kernel.Points
import proofs.«404157_j18021682774350_2_alg».proof.Proof.Gen.Kernel.Frame
import proofs.«404157_j18021682774350_2_alg».proof.Proof.Gen.KernelIdeal
import proofs.«404157_j18021682774350_2_alg».proof.Proof.Gen.KernelIdeal.Skeleton
import proofs.«404157_j18021682774350_2_alg».proof.Proof.Gen.KernelIdeal.Launch
import proofs.«404157_j18021682774350_2_alg».proof.Proof.Gen.KernelIdeal.Points
import proofs.«404157_j18021682774350_2_alg».proof.Proof.Gen.KernelIdeal.Frame
import proofs.«404157_j18021682774350_2_alg».proof.Proof.Gen.ReferenceIdeal
import proofs.«404157_j18021682774350_2_alg».proof.Proof.RefRun
import proofs.«404157_j18021682774350_2_alg».proof.Proof.RefRead
import proofs.«404157_j18021682774350_2_alg».proof.Proof.ReferenceRun
import proofs.«404157_j18021682774350_2_alg».proof.Proof.Gen.Pre_finite_inputs
import proofs.«404157_j18021682774350_2_alg».proof.Proof.KernelRun
import proofs.«404157_j18021682774350_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the two results dropped. -/
theorem frame_reference_ideal : Cert.frame_ReferenceIdeal := fun m ρ _ =>
  (θ_run Cert.ReferenceIdeal.defs _ _).mono (fun _ h c => (h c).2.2) (Cert.ReferenceIdeal.TwoStretches.run (F := Ideal) m ρ)

/-- From memories that agree on the arguments both idealized programs end with the reference's two stage terms of
    those arguments in their result buffers. -/
theorem algebraic : Cert.algebraic_KernelIdeal_ReferenceIdeal := by
  intro m ρ m' ρ' hpre hagree
  refine ⟨fun c => Cert.ReferenceIdeal.ReadP.val_main_v52 (F := Ideal) (Cert.Bridge.emb m c) (Cert.Bridge.trans m c)
      (Cert.Bridge.rels m c) (Cert.Bridge.order m c) (Cert.Bridge.negL m c) (Cert.Bridge.negR m c),
    fun c => Cert.ReferenceIdeal.ReadP.val_main_v58 (F := Ideal) (Cert.Bridge.emb m c) (Cert.Bridge.trans m c)
      (Cert.Bridge.rels m c) (Cert.Bridge.order m c) (Cert.Bridge.negL m c) (Cert.Bridge.negR m c), ?_, ?_⟩
  · refine (θ_run Cert.KernelIdeal.defs _ _).mono (fun r h c => ?_) (Cert.KernelIdeal.Results.run_results (F := Ideal) m ρ)
    obtain ⟨h0, h1, hargs⟩ := h c
    exact ⟨h0.trans (Cert.Bridge.logits_value m ρ hpre c), h1.trans (Cert.Bridge.probs_value m ρ hpre c), hargs⟩
  · refine (θ_run Cert.ReferenceIdeal.defs _ _).mono (fun r h c => ?_) (Cert.ReferenceIdeal.TwoStretches.run (F := Ideal) m' ρ')
    obtain ⟨h0, h1, hargs⟩ := h c
    obtain ⟨e0, e1, e2, e3, e4, e5⟩ := hagree c
    refine ⟨h0.trans ?_, h1.trans ?_, hargs⟩
    · rw [e0, e1, e2, e3, e4, e5]
    · rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
